-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x172 : Shape := ⟨2, ![500000, 172]⟩
abbrev S500000 : Shape := ⟨1, ![500000]⟩
abbrev S172 : Shape := ⟨1, ![172]⟩
abbrev S344x688 : Shape := ⟨2, ![344, 688]⟩
abbrev S344 : Shape := ⟨1, ![344]⟩
abbrev S100x344 : Shape := ⟨2, ![100, 344]⟩
abbrev S100 : Shape := ⟨1, ![100]⟩
abbrev S516x100 : Shape := ⟨2, ![516, 100]⟩
abbrev S516x172 : Shape := ⟨2, ![516, 172]⟩
abbrev S516 : Shape := ⟨1, ![516]⟩
abbrev S100000 : Shape := ⟨1, ![100000]⟩
abbrev S_ : Shape := ⟨0, ![]⟩

class Facts : Prop where
  bcast_S_S500000x172 : S_.BroadcastsInDim S500000x172 (![] : Fin 0 → Fin S500000x172.rank)
  reducesTo_S500000x172_S_d0_1 : S500000x172.ReducesTo [0, 1] S_
  h_S_ : 0 < S_.numel
  bcast_S_S500000 : S_.BroadcastsInDim S500000 (![] : Fin 0 → Fin S500000.rank)
  reducesTo_S500000_S_d0 : S500000.ReducesTo [0] S_
  bcast_S_S172 : S_.BroadcastsInDim S172 (![] : Fin 0 → Fin S172.rank)
  reducesTo_S172_S_d0 : S172.ReducesTo [0] S_
  bcast_S_S344x688 : S_.BroadcastsInDim S344x688 (![] : Fin 0 → Fin S344x688.rank)
  reducesTo_S344x688_S_d0_1 : S344x688.ReducesTo [0, 1] S_
  bcast_S_S344 : S_.BroadcastsInDim S344 (![] : Fin 0 → Fin S344.rank)
  reducesTo_S344_S_d0 : S344.ReducesTo [0] S_
  bcast_S_S100x344 : S_.BroadcastsInDim S100x344 (![] : Fin 0 → Fin S100x344.rank)
  reducesTo_S100x344_S_d0_1 : S100x344.ReducesTo [0, 1] S_
  bcast_S_S100 : S_.BroadcastsInDim S100 (![] : Fin 0 → Fin S100.rank)
  reducesTo_S100_S_d0 : S100.ReducesTo [0] S_
  bcast_S_S516x100 : S_.BroadcastsInDim S516x100 (![] : Fin 0 → Fin S516x100.rank)
  reducesTo_S516x100_S_d0_1 : S516x100.ReducesTo [0, 1] S_
  bcast_S_S516x172 : S_.BroadcastsInDim S516x172 (![] : Fin 0 → Fin S516x172.rank)
  reducesTo_S516x172_S_d0_1 : S516x172.ReducesTo [0, 1] S_
  bcast_S_S516 : S_.BroadcastsInDim S516 (![] : Fin 0 → Fin S516.rank)
  reducesTo_S516_S_d0 : S516.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S516 .f32) (main_arg12 : FVec F S516 .f32) (main_arg13 : FVec F S100000 .f32) (main_v48 : IVec S_ 1) (main_v49 : FVec F S516x172 .f32) (main_v50 : FVec F S516x172 .f32) : IVec S_ 1 :=
  let main_v51 : IVec S516x172 1 := cmpf .olt main_v49 main_v50
  let main_c_19 : IVec S_ 1 := constantI S_ 1 1#1
  let main_v52 : IVec S_ 1 := (fun x v => Host.reduce IntOp.andi x v reducesTo_S516x172_S_d0_1 h_S_) main_v51 main_c_19
  let main_v53 : IVec S_ 1 := andi main_v48 main_v52
  let main_v54 : FVec F S516 .f32 := Host.absf main_arg11
  let main_cst_20 : FVec F S_ .f32 := constant S_ .f32 0x7F800000#32
  let main_v55 : FVec F S516 .f32 := broadcastInDim S516 ![] bcast_S_S516 main_cst_20
  let main_v56 : IVec S516 1 := cmpf .olt main_v54 main_v55
  let main_c_21 : IVec S_ 1 := constantI S_ 1 1#1
  let main_v57 : IVec S_ 1 := (fun x v => Host.reduce IntOp.andi x v reducesTo_S516_S_d0 h_S_) main_v56 main_c_21
  let main_v58 : IVec S_ 1 := andi main_v53 main_v57
  let main_v59 : FVec F S516 .f32 := Host.absf main_arg12
  let main_cst_22 : FVec F S_ .f32 := constant S_ .f32 0x7F800000#32
  let main_v60 : FVec F S516 .f32 := broadcastInDim S516 ![] bcast_S_S516 main_cst_22
  let main_v61 : IVec S516 1 := cmpf .olt main_v59 main_v60
  let main_c_23 : IVec S_ 1 := constantI S_ 1 1#1
  let main_v62 : IVec S_ 1 := (fun x v => Host.reduce IntOp.andi x v reducesTo_S516_S_d0 h_S_) main_v61 main_c_23
  let main_v63 : IVec S_ 1 := andi main_v58 main_v62
  let main_v64 : FVec F S100000 .f32 := Host.absf main_arg13
  let main_cst_24 : FVec F S_ .f32 := constant S_ .f32 0x7F800000#32
  let main_v65 : FVec F S100000 .f32 := broadcastInDim S100000 ![] bcast_S_S100000 main_cst_24
  let main_v66 : IVec S100000 1 := cmpf .olt main_v64 main_v65
  let main_c_25 : IVec S_ 1 := constantI S_ 1 1#1
  let main_v67 : IVec S_ 1 := (fun x v => Host.reduce IntOp.andi x v reducesTo_S100000_S_d0 h_S_) main_v66 main_c_25
  fn_part4 (F := F) main_v63 main_v67

def fn_part2 {F : FTy → Type} [FloatOps F] (main_arg7 : FVec F S100x344 .f32) (main_arg8 : FVec F S100 .f32) (main_arg9 : FVec F S516x100 .f32) (main_arg10 : FVec F S516x172 .f32) (main_arg11 : FVec F S516 .f32) (main_arg12 : FVec F S516 .f32) (main_arg13 : FVec F S100000 .f32) (main_v33 : IVec S_ 1) : IVec S_ 1 :=
  let main_v34 : FVec F S100x344 .f32 := Host.absf main_arg7
  let main_cst_12 : FVec F S_ .f32 := constant S_ .f32 0x7F800000#32
  let main_v35 : FVec F S100x344 .f32 := broadcastInDim S100x344 ![] bcast_S_S100x344 main_cst_12
  let main_v36 : IVec S100x344 1 := cmpf .olt main_v34 main_v35
  let main_c_13 : IVec S_ 1 := constantI S_ 1 1#1
  let main_v37 : IVec S_ 1 := (fun x v => Host.reduce IntOp.andi x v reducesTo_S100x344_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S516x100 .f32 := Host.absf main_arg9
  let main_cst_16 : FVec F S_ .f32 := constant S_ .f32 0x7F800000#32
  let main_v45 : FVec F S516x100 .f32 := broadcastInDim S516x100 ![] bcast_S_S516x100 main_cst_16
  let main_v46 : IVec S516x100 1 := cmpf .olt main_v44 main_v45
  let main_c_17 : IVec S_ 1 := constantI S_ 1 1#1
  let main_v47 : IVec S_ 1 := (fun x v => Host.reduce IntOp.andi x v reducesTo_S516x100_S_d0_1 h_S_) main_v46 main_c_17
  let main_v48 : IVec S_ 1 := andi main_v43 main_v47
  let main_v49 : FVec F S516x172 .f32 := Host.absf main_arg10
  let main_cst_18 : FVec F S_ .f32 := constant S_ .f32 0x7F800000#32
  let main_v50 : FVec F S516x172 .f32 := broadcastInDim S516x172 ![] bcast_S_S516x172 main_cst_18
  fn_part3 (F := F) main_arg11 main_arg12 main_arg13 main_v48 main_v49 main_v50

def fn_part1 {F : FTy → Type} [FloatOps F] (main_arg4 : FVec F S172 .f32) (main_arg5 : FVec F S344x688 .f32) (main_arg6 : FVec F S344 .f32) (main_arg7 : FVec F S100x344 .f32) (main_arg8 : FVec F S100 .f32) (main_arg9 : FVec F S516x100 .f32) (main_arg10 : FVec F S516x172 .f32) (main_arg11 : FVec F S516 .f32) (main_arg12 : FVec F S516 .f32) (main_arg13 : FVec F S100000 .f32) (main_v13 : IVec S_ 1) (main_v16 : IVec S172 1) : IVec S_ 1 :=
  let main_c_5 : IVec S_ 1 := constantI S_ 1 1#1
  let main_v17 : IVec S_ 1 := (fun x v => Host.reduce IntOp.andi x v reducesTo_S172_S_d0 h_S_) main_v16 main_c_5
  let main_v18 : IVec S_ 1 := andi main_v13 main_v17
  let main_v19 : FVec F S172 .f32 := Host.absf main_arg4
  let main_cst_6 : FVec F S_ .f32 := constant S_ .f32 0x7F800000#32
  let main_v20 : FVec F S172 .f32 := broadcastInDim S172 ![] bcast_S_S172 main_cst_6
  let main_v21 : IVec S172 1 := cmpf .olt main_v19 main_v20
  let main_c_7 : IVec S_ 1 := constantI S_ 1 1#1
  let main_v22 : IVec S_ 1 := (fun x v => Host.reduce IntOp.andi x v reducesTo_S172_S_d0 h_S_) main_v21 main_c_7
  let main_v23 : IVec S_ 1 := andi main_v18 main_v22
  let main_v24 : FVec F S344x688 .f32 := Host.absf main_arg5
  let main_cst_8 : FVec F S_ .f32 := constant S_ .f32 0x7F800000#32
  let main_v25 : FVec F S344x688 .f32 := broadcastInDim S344x688 ![] bcast_S_S344x688 main_cst_8
  let main_v26 : IVec S344x688 1 := cmpf .olt main_v24 main_v25
  let main_c_9 : IVec S_ 1 := constantI S_ 1 1#1
  let main_v27 : IVec S_ 1 := (fun x v => Host.reduce IntOp.andi x v reducesTo_S344x688_S_d0_1 h_S_) main_v26 main_c_9
  let main_v28 : IVec S_ 1 := andi main_v23 main_v27
  let main_v29 : FVec F S344 .f32 := Host.absf main_arg6
  let main_cst_10 : FVec F S_ .f32 := constant S_ .f32 0x7F800000#32
  let main_v30 : FVec F S344 .f32 := broadcastInDim S344 ![] bcast_S_S344 main_cst_10
  let main_v31 : IVec S344 1 := cmpf .olt main_v29 main_v30
  let main_c_11 : IVec S_ 1 := constantI S_ 1 1#1
  let main_v32 : IVec S_ 1 := (fun x v => Host.reduce IntOp.andi x v reducesTo_S344_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S500000x172 .f32) (main_arg1 : FVec F S500000 .f32) (main_arg2 : FVec F S500000x172 .f32) (main_arg3 : FVec F S172 .f32) (main_arg4 : FVec F S172 .f32) (main_arg5 : FVec F S344x688 .f32) (main_arg6 : FVec F S344 .f32) (main_arg7 : FVec F S100x344 .f32) (main_arg8 : FVec F S100 .f32) (main_arg9 : FVec F S516x100 .f32) (main_arg10 : FVec F S516x172 .f32) (main_arg11 : FVec F S516 .f32) (main_arg12 : FVec F S516 .f32) (main_arg13 : FVec F S100000 .f32) (main_arg14 : IVec S100000 32) (main_arg15 : IVec S100000 32) (main_arg16 : IVec S100000 32) : IVec S_ 1 :=
  let main_v0 : FVec F S500000x172 .f32 := Host.absf main_arg0
  let main_cst : FVec F S_ .f32 := constant S_ .f32 0x7F800000#32
  let main_v1 : FVec F S500000x172 .f32 := broadcastInDim S500000x172 ![] bcast_S_S500000x172 main_cst
  let main_v2 : IVec S500000x172 1 := cmpf .olt main_v0 main_v1
  let main_c : IVec S_ 1 := constantI S_ 1 1#1
  let main_v3 : IVec S_ 1 := (fun x v => Host.reduce IntOp.andi x v reducesTo_S500000x172_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S500000x172 .f32 := Host.absf main_arg2
  let main_cst_2 : FVec F S_ .f32 := constant S_ .f32 0x7F800000#32
  let main_v10 : FVec F S500000x172 .f32 := broadcastInDim S500000x172 ![] bcast_S_S500000x172 main_cst_2
  let main_v11 : IVec S500000x172 1 := cmpf .olt main_v9 main_v10
  let main_c_3 : IVec S_ 1 := constantI S_ 1 1#1
  let main_v12 : IVec S_ 1 := (fun x v => Host.reduce IntOp.andi x v reducesTo_S500000x172_S_d0_1 h_S_) main_v11 main_c_3
  let main_v13 : IVec S_ 1 := andi main_v8 main_v12
  let main_v14 : FVec F S172 .f32 := Host.absf main_arg3
  let main_cst_4 : FVec F S_ .f32 := constant S_ .f32 0x7F800000#32
  let main_v15 : FVec F S172 .f32 := broadcastInDim S172 ![] bcast_S_S172 main_cst_4
  let main_v16 : IVec S172 1 := cmpf .olt main_v14 main_v15
  fn_part1 (F := F) main_arg4 main_arg5 main_arg6 main_arg7 main_arg8 main_arg9 main_arg10 main_arg11 main_arg12 main_arg13 main_v13 main_v16
-- ==== Kernel.lean ====
abbrev S500000x172 : Shape := ⟨2, ![500000, 172]⟩
abbrev S500000 : Shape := ⟨1, ![500000]⟩
abbrev S172 : Shape := ⟨1, ![172]⟩
abbrev S344x688 : Shape := ⟨2, ![344, 688]⟩
abbrev S344 : Shape := ⟨1, ![344]⟩
abbrev S100x344 : Shape := ⟨2, ![100, 344]⟩
abbrev S100 : Shape := ⟨1, ![100]⟩
abbrev S516x100 : Shape := ⟨2, ![516, 100]⟩
abbrev S516x172 : Shape := ⟨2, ![516, 172]⟩
abbrev S516 : Shape := ⟨1, ![516]⟩
abbrev S100000 : Shape := ⟨1, ![100000]⟩
abbrev S_ : Shape := ⟨0, ![]⟩
abbrev S100000x1 : Shape := ⟨2, ![100000, 1]⟩
abbrev S100000x172 : Shape := ⟨2, ![100000, 172]⟩
abbrev S1x172 : Shape := ⟨2, ![1, 172]⟩
abbrev S344x172 : Shape := ⟨2, ![344, 172]⟩
abbrev S1000x172 : Shape := ⟨2, ![1000, 172]⟩
abbrev S172x344 : Shape := ⟨2, ![172, 344]⟩
abbrev S1000x344 : Shape := ⟨2, ![1000, 344]⟩
abbrev S1x344 : Shape := ⟨2, ![1, 344]⟩
abbrev S344x100 : Shape := ⟨2, ![344, 100]⟩
abbrev S1000x100 : Shape := ⟨2, ![1000, 100]⟩
abbrev S1x100 : Shape := ⟨2, ![1, 100]⟩
abbrev S100x516 : Shape := ⟨2, ![100, 516]⟩
abbrev S1000x516 : Shape := ⟨2, ![1000, 516]⟩
abbrev S1x516 : Shape := ⟨2, ![1, 516]⟩
abbrev S172x516 : Shape := ⟨2, ![172, 516]⟩

abbrev nBuf : Space → Nat
  | .hbm => 96
  | .vmem => 21
  | .smem => 0
  | _ => 0

abbrev bufTy : (tb : Table) → Fin (tcTables nBuf tb) → BufTy
  | .hbm, ⟨0, _⟩ => ⟨S500000x172, .f32⟩
  | .hbm, ⟨1, _⟩ => ⟨S500000, .f32⟩
  | .hbm, ⟨2, _⟩ => ⟨S500000x172, .f32⟩
  | .hbm, ⟨3, _⟩ => ⟨S172, .f32⟩
  | .hbm, ⟨4, _⟩ => ⟨S172, .f32⟩
  | .hbm, ⟨5, _⟩ => ⟨S344x688, .f32⟩
  | .hbm, ⟨6, _⟩ => ⟨S344, .f32⟩
  | .hbm, ⟨7, _⟩ => ⟨S100x344, .f32⟩
  | .hbm, ⟨8, _⟩ => ⟨S100, .f32⟩
  | .hbm, ⟨9, _⟩ => ⟨S516x100, .f32⟩
  | .hbm, ⟨10, _⟩ => ⟨S516x172, .f32⟩
  | .hbm, ⟨11, _⟩ => ⟨S516, .f32⟩
  | .hbm, ⟨12, _⟩ => ⟨S516, .f32⟩
  | .hbm, ⟨13, _⟩ => ⟨S100000, .f32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x172, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x172, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000x172, .f32⟩
  | .hbm, ⟨44, _⟩ => ⟨S_, .i32⟩
  | .hbm, ⟨45, _⟩ => ⟨S100000, .i32⟩
  | .hbm, ⟨46, _⟩ => ⟨S100000, .i1⟩
  | .hbm, ⟨47, _⟩ => ⟨S_, .i32⟩
  | .hbm, ⟨48, _⟩ => ⟨S100000, .i32⟩
  | .hbm, ⟨49, _⟩ => ⟨S100000, .i32⟩
  | .hbm, ⟨50, _⟩ => ⟨S100000, .i32⟩
  | .hbm, ⟨51, _⟩ => ⟨S100000x1, .i32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S1x172, .f32⟩
  | .hbm, ⟨56, _⟩ => ⟨S100000x172, .f32⟩
  | .hbm, ⟨57, _⟩ => ⟨S100000x172, .f32⟩
  | .hbm, ⟨58, _⟩ => ⟨S100000x172, .f32⟩
  | .hbm, ⟨59, _⟩ => ⟨S1x172, .f32⟩
  | .hbm, ⟨60, _⟩ => ⟨S100000x172, .f32⟩
  | .hbm, ⟨61, _⟩ => ⟨S100000x172, .f32⟩
  | .hbm, ⟨62, _⟩ => ⟨S100000x172, .f32⟩
  | .hbm, ⟨63, _⟩ => ⟨S344x172, .f32⟩
  | .hbm, ⟨64, _⟩ => ⟨S344x172, .f32⟩
  | .hbm, ⟨65, _⟩ => ⟨S344x172, .f32⟩
  | .hbm, ⟨66, _⟩ => ⟨S344x172, .f32⟩
  | .hbm, ⟨67, _⟩ => ⟨S100000x172, .f32⟩
  | .hbm, ⟨68, _⟩ => ⟨S100000, .i32⟩
  | .hbm, ⟨69, _⟩ => ⟨S_, .i32⟩
  | .hbm, ⟨70, _⟩ => ⟨S500000, .i32⟩
  | .hbm, ⟨71, _⟩ => ⟨S100000x1, .i32⟩
  | .hbm, ⟨72, _⟩ => ⟨S500000, .i32⟩
  | .hbm, ⟨73, _⟩ => ⟨S_, .i32⟩
  | .hbm, ⟨74, _⟩ => ⟨S100000, .i32⟩
  | .hbm, ⟨75, _⟩ => ⟨S100000, .i1⟩
  | .hbm, ⟨76, _⟩ => ⟨S_, .i32⟩
  | .hbm, ⟨77, _⟩ => ⟨S100000, .i32⟩
  | .hbm, ⟨78, _⟩ => ⟨S100000, .i32⟩
  | .hbm, ⟨79, _⟩ => ⟨S100000, .i32⟩
  | .hbm, ⟨80, _⟩ => ⟨S100000x1, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S_, .i32⟩
  | .hbm, ⟨85, _⟩ => ⟨S100000, .i32⟩
  | .hbm, ⟨86, _⟩ => ⟨S100000, .i32⟩
  | .hbm, ⟨87, _⟩ => ⟨S_, .i32⟩
  | .hbm, ⟨88, _⟩ => ⟨S100000, .i32⟩
  | .hbm, ⟨89, _⟩ => ⟨S100000, .i1⟩
  | .hbm, ⟨90, _⟩ => ⟨S_, .i32⟩
  | .hbm, ⟨91, _⟩ => ⟨S100000, .i32⟩
  | .hbm, ⟨92, _⟩ => ⟨S100000, .i32⟩
  | .hbm, ⟨93, _⟩ => ⟨S100000, .i32⟩
  | .hbm, ⟨94, _⟩ => ⟨S100000x1, .i32⟩
  | .hbm, ⟨95, _⟩ => ⟨S500000x172, .f32⟩
  | .local _ .vmem, ⟨0, _⟩ => ⟨S1000x172, .f32⟩
  | .local _ .vmem, ⟨1, _⟩ => ⟨S1000x172, .f32⟩
  | .local _ .vmem, ⟨2, _⟩ => ⟨S1000x172, .f32⟩
  | .local _ .vmem, ⟨3, _⟩ => ⟨S1000x172, .f32⟩
  | .local _ .vmem, ⟨4, _⟩ => ⟨S1000x172, .f32⟩
  | .local _ .vmem, ⟨5, _⟩ => ⟨S1000x172, .f32⟩
  | .local _ .vmem, ⟨6, _⟩ => ⟨S1000x172, .f32⟩
  | .local _ .vmem, ⟨7, _⟩ => ⟨S1000x172, .f32⟩
  | .local _ .vmem, ⟨8, _⟩ => ⟨S344x172, .f32⟩
  | .local _ .vmem, ⟨9, _⟩ => ⟨S344x172, .f32⟩
  | .local _ .vmem, ⟨10, _⟩ => ⟨S344x172, .f32⟩
  | .local _ .vmem, ⟨11, _⟩ => ⟨S344x172, .f32⟩
  | .local _ .vmem, ⟨12, _⟩ => ⟨S344, .f32⟩
  | .local _ .vmem, ⟨13, _⟩ => ⟨S100x344, .f32⟩
  | .local _ .vmem, ⟨14, _⟩ => ⟨S100, .f32⟩
  | .local _ .vmem, ⟨15, _⟩ => ⟨S516x100, .f32⟩
  | .local _ .vmem, ⟨16, _⟩ => ⟨S516x172, .f32⟩
  | .local _ .vmem, ⟨17, _⟩ => ⟨S516, .f32⟩
  | .local _ .vmem, ⟨18, _⟩ => ⟨S516, .f32⟩
  | .local _ .vmem, ⟨19, _⟩ => ⟨S1000x172, .f32⟩
  | .local _ .vmem, ⟨20, _⟩ => ⟨S1000x172, .f32⟩
  | _, _ => ⟨S500000x172, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_call0_v0 : Ref sig .tc := ⟨.hbm, 84, rfl⟩
abbrev main_call0_v1 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x172 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x172 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x172 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x172 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S344x172 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S344x172 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S344x172 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S344x172 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S344 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100x344 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S516x100 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S516x172 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S516 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S516 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1000x172 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S172_S1x172_1 : S172.BroadcastsInDim S1x172 (![1] : Fin 1 → Fin S1x172.rank)
  bcast_S100000x1_S100000x172_0_1 : S100000x1.BroadcastsInDim S100000x172 (![0, 1] : Fin 2 → Fin S100000x172.rank)
  bcast_S1x172_S100000x172_0_1 : S1x172.BroadcastsInDim S100000x172 (![0, 1] : Fin 2 → Fin S100000x172.rank)
  slices_S344x688_S344x172_0_0 : S344x688.Slices ![0, 0] S344x172
  slices_S344x688_S344x172_0_172 : S344x688.Slices ![0, 172] S344x172
  slices_S344x688_S344x172_0_344 : S344x688.Slices ![0, 344] S344x172
  slices_S344x688_S344x172_0_516 : S344x688.Slices ![0, 516] S344x172
  inb_S1000x172_S1000x172_0_0 : ∀ a, (![0, 0] : Fin 2 → Nat) a + S1000x172.size a ≤ S1000x172.size a
  h_S1000x172 : 0 < S1000x172.numel
  shapeCasts_S1000x172_S1000x172 : S1000x172.ShapeCasts S1000x172
  bitsLt_bf16_f32 : FTy.bits .bf16 < FTy.bits .f32
  inb_S344x172_S344x172_0_0 : ∀ a, (![0, 0] : Fin 2 → Nat) a + S344x172.size a ≤ S344x172.size a
  h_S344x172 : 0 < S344x172.numel
  shapeCasts_S344x172_S344x172 : S344x172.ShapeCasts S344x172
  transposes_S344x172_p1_0_S172x344 : S344x172.Transposes [1, 0] S172x344
  inb_S344_S344_0 : ∀ a, (![0] : Fin 1 → Nat) a + S344.size a ≤ S344.size a
  h_S344 : 0 < S344.numel
  shapeCasts_S344_S1x344 : S344.ShapeCasts S1x344
  broadcasts_S1x344_S1000x344 : S1x344.Broadcasts S1000x344
  inb_S100x344_S100x344_0_0 : ∀ a, (![0, 0] : Fin 2 → Nat) a + S100x344.size a ≤ S100x344.size a
  h_S100x344 : 0 < S100x344.numel
  transposes_S100x344_p1_0_S344x100 : S100x344.Transposes [1, 0] S344x100
  inb_S100_S100_0 : ∀ a, (![0] : Fin 1 → Nat) a + S100.size a ≤ S100.size a
  h_S100 : 0 < S100.numel
  shapeCasts_S100_S1x100 : S100.ShapeCasts S1x100
  broadcasts_S1x100_S1000x100 : S1x100.Broadcasts S1000x100
  inb_S516x100_S516x100_0_0 : ∀ a, (![0, 0] : Fin 2 → Nat) a + S516x100.size a ≤ S516x100.size a
  h_S516x100 : 0 < S516x100.numel
  inb_S516x172_S516x172_0_0 : ∀ a, (![0, 0] : Fin 2 → Nat) a + S516x172.size a ≤ S516x172.size a
  h_S516x172 : 0 < S516x172.numel
  transposes_S516x100_p1_0_S100x516 : S516x100.Transposes [1, 0] S100x516
  inb_S516_S516_0 : ∀ a, (![0] : Fin 1 → Nat) a + S516.size a ≤ S516.size a
  h_S516 : 0 < S516.numel
  shapeCasts_S516_S1x516 : S516.ShapeCasts S1x516
  broadcasts_S1x516_S1000x516 : S1x516.Broadcasts S1000x516
  transposes_S516x172_p1_0_S172x516 : S516x172.Transposes [1, 0] S172x516
  slices_S1000x516_o0_0_S1000x172 : S1000x516.Slices ![0, 0] S1000x172
  slices_S1000x516_o0_172_S1000x172 : S1000x516.Slices ![0, 172] S1000x172
  slices_S1000x516_o0_344_S1000x172 : S1000x516.Slices ![0, 344] S1000x172
  bcast_S_S500000 : S_.BroadcastsInDim S500000 (![] : Fin 0 → Fin S500000.rank)
  gather_S500000x172_S100000x1_S100000x172_1_0_n_n_0_1_1172_wf : GatherDims.WF S500000x172 S100000x1 S100000x172 [1] [0] [] [0] [] 1 ![1, 172]
  gather_S500000_S100000x1_S100000_n_0_n_n_0_1_1_wf : GatherDims.WF S500000 S100000x1 S100000 [] [0] [] [0] [] 1 ![1]
  dot_S1000x172_S172x344_S1000x344_1_0_0_1_n_n_wf : DotDims.WF S1000x172 S172x344 S1000x344 [1] [0] [0] [1] [] []
  dot_S1000x344_S344x100_S1000x100_1_0_0_1_n_n_wf : DotDims.WF S1000x344 S344x100 S1000x100 [1] [0] [0] [1] [] []
  dot_S1000x100_S100x516_S1000x516_1_0_0_1_n_n_wf : DotDims.WF S1000x100 S100x516 S1000x516 [1] [0] [0] [1] [] []
  dot_S1000x172_S172x516_S1000x516_1_0_0_1_n_n_wf : DotDims.WF S1000x172 S172x516 S1000x516 [1] [0] [0] [1] [] []
  scatter_S500000_S100000x1_S100000_n_0_0_1_wf : ScatterDims.WF S500000 S100000x1 S100000 [] [0] [0] 1
  scatter_S500000x172_S100000x1_S100000x172_1_0_0_1_wf : ScatterDims.WF S500000x172 S100000x1 S100000x172 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x172.size a ≤ S100000x172.size a
  hwx0_0 : ∀ i : grid0.Coords, EltTy.bits .f32 = 32 ∨ (Rect.block (s := S100000x172) S1000x172.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x172.size a ≤ S100000x172.size a
  hwx0_1 : ∀ i : grid0.Coords, EltTy.bits .f32 = 32 ∨ (Rect.block (s := S100000x172) S1000x172.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x172.size a ≤ S100000x172.size a
  hwx0_2 : ∀ i : grid0.Coords, EltTy.bits .f32 = 32 ∨ (Rect.block (s := S100000x172) S1000x172.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x172.size a ≤ S100000x172.size a
  hwx0_3 : ∀ i : grid0.Coords, EltTy.bits .f32 = 32 ∨ (Rect.block (s := S100000x172) S1000x172.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S344x172.size a ≤ S344x172.size a
  hwx0_4 : ∀ i : grid0.Coords, EltTy.bits .f32 = 32 ∨ (Rect.block (s := S344x172) S344x172.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S344x172.size a ≤ S344x172.size a
  hwx0_5 : ∀ i : grid0.Coords, EltTy.bits .f32 = 32 ∨ (Rect.block (s := S344x172) S344x172.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S344x172.size a ≤ S344x172.size a
  hwx0_6 : ∀ i : grid0.Coords, EltTy.bits .f32 = 32 ∨ (Rect.block (s := S344x172) S344x172.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S344x172.size a ≤ S344x172.size a
  hwx0_7 : ∀ i : grid0.Coords, EltTy.bits .f32 = 32 ∨ (Rect.block (s := S344x172) S344x172.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S344.size a ≤ S344.size a
  hwx0_8 : ∀ i : grid0.Coords, EltTy.bits .f32 = 32 ∨ (Rect.block (s := S344) S344.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S100x344.size a ≤ S100x344.size a
  hwx0_9 : ∀ i : grid0.Coords, EltTy.bits .f32 = 32 ∨ (Rect.block (s := S100x344) S100x344.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S100.size a ≤ S100.size a
  hwx0_10 : ∀ i : grid0.Coords, EltTy.bits .f32 = 32 ∨ (Rect.block (s := S100) S100.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S516x100.size a ≤ S516x100.size a
  hwx0_11 : ∀ i : grid0.Coords, EltTy.bits .f32 = 32 ∨ (Rect.block (s := S516x100) S516x100.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S516x172.size a ≤ S516x172.size a
  hwx0_12 : ∀ i : grid0.Coords, EltTy.bits .f32 = 32 ∨ (Rect.block (s := S516x172) S516x172.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S516.size a ≤ S516.size a
  hwx0_13 : ∀ i : grid0.Coords, EltTy.bits .f32 = 32 ∨ (Rect.block (s := S516) S516.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S516.size a ≤ S516.size a
  hwx0_14 : ∀ i : grid0.Coords, EltTy.bits .f32 = 32 ∨ (Rect.block (s := S516) S516.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x172.size a ≤ S100000x172.size a
  hwx0_15 : ∀ i : grid0.Coords, EltTy.bits .f32 = 32 ∨ (Rect.block (s := S100000x172) S1000x172.size (cc0_transform_15 i) (hinb0_15 i)).WholeWords (EltTy.packing .f32)

variable [Facts₀]

def gather_S500000x172_S100000x1_S100000x172_1_0_n_n_0_1_1172 : GatherDims S500000x172 S100000x1 S100000x172 where
  offsetDims := [1]
  collapsedSliceDims := [0]
  operandBatchingDims := []
  startIndicesBatchingDims := []
  startIndexMap := [0]
  indexVectorDim := 1
  sliceSizes := ![1, 172]
  wf := gather_S500000x172_S100000x1_S100000x172_1_0_n_n_0_1_1172_wf
def gather_S500000_S100000x1_S100000_n_0_n_n_0_1_1 : GatherDims S500000 S100000x1 S100000 where
  offsetDims := []
  collapsedSliceDims := [0]
  operandBatchingDims := []
  startIndicesBatchingDims := []
  startIndexMap := [0]
  indexVectorDim := 1
  sliceSizes := ![1]
  wf := gather_S500000_S100000x1_S100000_n_0_n_n_0_1_1_wf
def dot_S1000x172_S172x344_S1000x344_1_0_0_1_n_n : DotDims S1000x172 S172x344 S1000x344 where
  lhsContracting := [1]
  rhsContracting := [0]
  lhsNonContracting := [0]
  rhsNonContracting := [1]
  lhsBatch := []
  rhsBatch := []
  wf := dot_S1000x172_S172x344_S1000x344_1_0_0_1_n_n_wf
def dot_S1000x344_S344x100_S1000x100_1_0_0_1_n_n : DotDims S1000x344 S344x100 S1000x100 where
  lhsContracting := [1]
  rhsContracting := [0]
  lhsNonContracting := [0]
  rhsNonContracting := [1]
  lhsBatch := []
  rhsBatch := []
  wf := dot_S1000x344_S344x100_S1000x100_1_0_0_1_n_n_wf
def dot_S1000x100_S100x516_S1000x516_1_0_0_1_n_n : DotDims S1000x100 S100x516 S1000x516 where
  lhsContracting := [1]
  rhsContracting := [0]
  lhsNonContracting := [0]
  rhsNonContracting := [1]
  lhsBatch := []
  rhsBatch := []
  wf := dot_S1000x100_S100x516_S1000x516_1_0_0_1_n_n_wf
def dot_S1000x172_S172x516_S1000x516_1_0_0_1_n_n : DotDims S1000x172 S172x516 S1000x516 where
  lhsContracting := [1]
  rhsContracting := [0]
  lhsNonContracting := [0]
  rhsNonContracting := [1]
  lhsBatch := []
  rhsBatch := []
  wf := dot_S1000x172_S172x516_S1000x516_1_0_0_1_n_n_wf
def scatter_S500000_S100000x1_S100000_n_0_0_1 : ScatterDims S500000 S100000x1 S100000 where
  updateWindowDims := []
  insertedWindowDims := [0]
  scatterDimsToOperandDims := [0]
  indexVectorDim := 1
  wf := scatter_S500000_S100000x1_S100000_n_0_0_1_wf
def scatter_S500000x172_S100000x1_S100000x172_1_0_0_1 : ScatterDims S500000x172 S100000x1 S100000x172 where
  updateWindowDims := [1]
  insertedWindowDims := [0]
  scatterDimsToOperandDims := [0]
  indexVectorDim := 1
  wf := scatter_S500000x172_S100000x1_S100000x172_1_0_0_1_wf

abbrev win0_0 : Pipeline.Window sig grid0 :=
  Pipeline.Window.ofSpec (Memref.whole main_v6) S1000x172.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x172.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1000x172.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1000x172.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S344x172.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S344x172.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S344x172.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S344x172.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S344.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S100x344.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S100.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S516x100.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S516x172.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S516.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S516.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v42) S1000x172.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S500000x172 : Shape := ⟨2, ![500000, 172]⟩
abbrev S500000 : Shape := ⟨1, ![500000]⟩
abbrev S172 : Shape := ⟨1, ![172]⟩
abbrev S344x688 : Shape := ⟨2, ![344, 688]⟩
abbrev S344 : Shape := ⟨1, ![344]⟩
abbrev S100x344 : Shape := ⟨2, ![100, 344]⟩
abbrev S100 : Shape := ⟨1, ![100]⟩
abbrev S516x100 : Shape := ⟨2, ![516, 100]⟩
abbrev S516x172 : Shape := ⟨2, ![516, 172]⟩
abbrev S516 : Shape := ⟨1, ![516]⟩
abbrev S100000 : Shape := ⟨1, ![100000]⟩
abbrev S_ : Shape := ⟨0, ![]⟩
abbrev S100000x1 : Shape := ⟨2, ![100000, 1]⟩
abbrev S100000x172 : Shape := ⟨2, ![100000, 172]⟩
abbrev S1x172 : Shape := ⟨2, ![1, 172]⟩
abbrev S100000x688 : Shape := ⟨2, ![100000, 688]⟩
abbrev S688x344 : Shape := ⟨2, ![688, 344]⟩
abbrev S100000x344 : Shape := ⟨2, ![100000, 344]⟩
abbrev S1x344 : Shape := ⟨2, ![1, 344]⟩
abbrev S344x100 : Shape := ⟨2, ![344, 100]⟩
abbrev S100000x100 : Shape := ⟨2, ![100000, 100]⟩
abbrev S1x100 : Shape := ⟨2, ![1, 100]⟩
abbrev S100x516 : Shape := ⟨2, ![100, 516]⟩
abbrev S100000x516 : Shape := ⟨2, ![100000, 516]⟩
abbrev S1x516 : Shape := ⟨2, ![1, 516]⟩
abbrev S172x516 : Shape := ⟨2, ![172, 516]⟩

abbrev nBuf : Space → Nat
  | .hbm => 148
  | .vmem => 0
  | .smem => 0
  | _ => 0

abbrev hbmTy0_0 (i : Nat) : BufTy := match i % 128 with
  | 0 => ⟨S500000x172, .f32⟩
  | 1 => ⟨S500000, .f32⟩
  | 2 => ⟨S500000x172, .f32⟩
  | 3 => ⟨S172, .f32⟩
  | 4 => ⟨S172, .f32⟩
  | 5 => ⟨S344x688, .f32⟩
  | 6 => ⟨S344, .f32⟩
  | 7 => ⟨S100x344, .f32⟩
  | 8 => ⟨S100, .f32⟩
  | 9 => ⟨S516x100, .f32⟩
  | 10 => ⟨S516x172, .f32⟩
  | 11 => ⟨S516, .f32⟩
  | 12 => ⟨S516, .f32⟩
  | 13 => ⟨S100000, .f32⟩
  | 14 => ⟨S100000, .i32⟩
  | 15 => ⟨S100000, .i32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x172, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x172, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x172, .f32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S100000, .f32⟩
  | 53 => ⟨S100000, .f32⟩
  | 54 => ⟨S100000x1, .f32⟩
  | 55 => ⟨S1x172, .f32⟩
  | 56 => ⟨S100000x172, .f32⟩
  | 57 => ⟨S100000x172, .f32⟩
  | 58 => ⟨S100000x172, .f32⟩
  | 59 => ⟨S1x172, .f32⟩
  | 60 => ⟨S100000x172, .f32⟩
  | 61 => ⟨S100000x172, .f32⟩
  | 62 => ⟨S100000x172, .f32⟩
  | 63 => ⟨S100000x688, .f32⟩
  | 64 => ⟨S688x344, .f32⟩
  | 65 => ⟨S100000x344, .f32⟩
  | 66 => ⟨S1x344, .f32⟩
  | 67 => ⟨S100000x344, .f32⟩
  | 68 => ⟨S100000x344, .f32⟩
  | 69 => ⟨S_, .f32⟩
  | 70 => ⟨S100000x344, .f32⟩
  | 71 => ⟨S100000x344, .f32⟩
  | 72 => ⟨S344x100, .f32⟩
  | 73 => ⟨S100000x100, .f32⟩
  | 74 => ⟨S1x100, .f32⟩
  | 75 => ⟨S100000x100, .f32⟩
  | 76 => ⟨S100000x100, .f32⟩
  | 77 => ⟨S100x516, .f32⟩
  | 78 => ⟨S100000x516, .f32⟩
  | 79 => ⟨S1x516, .f32⟩
  | 80 => ⟨S100000x516, .f32⟩
  | 81 => ⟨S100000x516, .f32⟩
  | 82 => ⟨S172x516, .f32⟩
  | 83 => ⟨S100000x516, .f32⟩
  | 84 => ⟨S1x516, .f32⟩
  | 85 => ⟨S100000x516, .f32⟩
  | 86 => ⟨S100000x516, .f32⟩
  | 87 => ⟨S100000x172, .f32⟩
  | 88 => ⟨S100000x172, .f32⟩
  | 89 => ⟨S100000x172, .f32⟩
  | 90 => ⟨S100000x172, .f32⟩
  | 91 => ⟨S100000x172, .f32⟩
  | 92 => ⟨S100000x172, .f32⟩
  | 93 => ⟨S100000x172, .f32⟩
  | 94 => ⟨S100000x172, .f32⟩
  | 95 => ⟨S100000x172, .f32⟩
  | 96 => ⟨S_, .f32⟩
  | 97 => ⟨S100000x172, .f32⟩
  | 98 => ⟨S100000x172, .f32⟩
  | 99 => ⟨S_, .f32⟩
  | 100 => ⟨S100000x172, .f32⟩
  | 101 => ⟨S100000x172, .f32⟩
  | 102 => ⟨S100000x172, .f32⟩
  | 103 => ⟨S100000x172, .f32⟩
  | 104 => ⟨S100000x172, .f32⟩
  | 105 => ⟨S_, .f32⟩
  | 106 => ⟨S100000x172, .f32⟩
  | 107 => ⟨S100000x172, .f32⟩
  | 108 => ⟨S_, .f32⟩
  | 109 => ⟨S100000x172, .f32⟩
  | 110 => ⟨S100000x172, .f32⟩
  | 111 => ⟨S100000x172, .f32⟩
  | 112 => ⟨S100000x172, .f32⟩
  | 113 => ⟨S100000x172, .f32⟩
  | 114 => ⟨S_, .f32⟩
  | 115 => ⟨S100000x172, .f32⟩
  | 116 => ⟨S100000x172, .f32⟩
  | 117 => ⟨S100000x172, .f32⟩
  | 118 => ⟨S100000x172, .f32⟩
  | 119 => ⟨S100000x172, .f32⟩
  | 120 => ⟨S100000, .i32⟩
  | 121 => ⟨S_, .i32⟩
  | 122 => ⟨S500000, .i32⟩
  | 123 => ⟨S100000x1, .i32⟩
  | 124 => ⟨S500000, .i32⟩
  | 125 => ⟨S_, .i32⟩
  | 126 => ⟨S100000, .i32⟩
  | 127 => ⟨S100000, .i1⟩
  | _ => ⟨S500000x172, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000, .i32⟩
  | 6 => ⟨S100000, .i1⟩
  | 7 => ⟨S_, .i32⟩
  | 8 => ⟨S_, .i32⟩
  | 9 => ⟨S100000, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S500000x172, .f32⟩
  | _ => ⟨S500000x172, .f32⟩

abbrev hbmTy (i : Nat) : BufTy := match i / 128 with
  | 0 => hbmTy0_0 i
  | 1 => hbmTy0_1 i
  | _ => ⟨S500000x172, .f32⟩

abbrev bufTy : (tb : Table) → Fin (tcTables nBuf tb) → BufTy
  | .hbm, ⟨i, _⟩ => hbmTy i
  | _, _ => ⟨S500000x172, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst : Ref sig .tc := ⟨.hbm, 96, rfl⟩
abbrev main_v69 : Ref sig .tc := ⟨.hbm, 97, rfl⟩
abbrev main_v70 : Ref sig .tc := ⟨.hbm, 98, rfl⟩
abbrev main_cst_7 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_8 : Ref sig .tc := ⟨.hbm, 105, rfl⟩
abbrev main_v76 : Ref sig .tc := ⟨.hbm, 106, rfl⟩
abbrev main_v77 : Ref sig .tc := ⟨.hbm, 107, rfl⟩
abbrev main_cst_9 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_10 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_11 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_12 : Ref sig .tc := ⟨.hbm, 125, rfl⟩
abbrev main_v92 : Ref sig .tc := ⟨.hbm, 126, rfl⟩
abbrev main_v93 : Ref sig .tc := ⟨.hbm, 127, rfl⟩
abbrev main_c_13 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_14 : Ref sig .tc := ⟨.hbm, 135, rfl⟩
abbrev main_call1_v0 : Ref sig .tc := ⟨.hbm, 136, rfl⟩
abbrev main_call1_v1 : Ref sig .tc := ⟨.hbm, 137, rfl⟩
abbrev main_v100 : Ref sig .tc := ⟨.hbm, 138, rfl⟩
abbrev main_c_15 : Ref sig .tc := ⟨.hbm, 139, rfl⟩
abbrev main_v101 : Ref sig .tc := ⟨.hbm, 140, rfl⟩
abbrev main_v102 : Ref sig .tc := ⟨.hbm, 141, rfl⟩
abbrev main_c_16 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S172_S1x172_1 : S172.BroadcastsInDim S1x172 (![1] : Fin 1 → Fin S1x172.rank)
  bcast_S100000x1_S100000x172_0_1 : S100000x1.BroadcastsInDim S100000x172 (![0, 1] : Fin 2 → Fin S100000x172.rank)
  bcast_S1x172_S100000x172_0_1 : S1x172.BroadcastsInDim S100000x172 (![0, 1] : Fin 2 → Fin S100000x172.rank)
  concatenates_S100000x172_S100000x172_S100000x172_S100000x172_S100000x688_d1 : Shape.Concatenates [S100000x172, S100000x172, S100000x172, S100000x172] S100000x688 1
  transposes_S344x688_S688x344_1_0 : S344x688.Transposes [1, 0] S688x344
  bcast_S344_S1x344_1 : S344.BroadcastsInDim S1x344 (![1] : Fin 1 → Fin S1x344.rank)
  bcast_S1x344_S100000x344_0_1 : S1x344.BroadcastsInDim S100000x344 (![0, 1] : Fin 2 → Fin S100000x344.rank)
  bcast_S_S100000x344 : S_.BroadcastsInDim S100000x344 (![] : Fin 0 → Fin S100000x344.rank)
  transposes_S100x344_S344x100_1_0 : S100x344.Transposes [1, 0] S344x100
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  transposes_S516x100_S100x516_1_0 : S516x100.Transposes [1, 0] S100x516
  bcast_S516_S1x516_1 : S516.BroadcastsInDim S1x516 (![1] : Fin 1 → Fin S1x516.rank)
  bcast_S1x516_S100000x516_0_1 : S1x516.BroadcastsInDim S100000x516 (![0, 1] : Fin 2 → Fin S100000x516.rank)
  transposes_S516x172_S172x516_1_0 : S516x172.Transposes [1, 0] S172x516
  slices_S100000x516_S100000x172_0_0 : S100000x516.Slices ![0, 0] S100000x172
  slices_S100000x516_S100000x172_0_172 : S100000x516.Slices ![0, 172] S100000x172
  slices_S100000x516_S100000x172_0_344 : S100000x516.Slices ![0, 344] S100000x172
  bcast_S_S100000x172 : S_.BroadcastsInDim S100000x172 (![] : Fin 0 → Fin S100000x172.rank)
  bcast_S_S500000 : S_.BroadcastsInDim S500000 (![] : Fin 0 → Fin S500000.rank)
  gather_S500000x172_S100000x1_S100000x172_1_0_n_n_0_1_1172_wf : GatherDims.WF S500000x172 S100000x1 S100000x172 [1] [0] [] [0] [] 1 ![1, 172]
  gather_S500000_S100000x1_S100000_n_0_n_n_0_1_1_wf : GatherDims.WF S500000 S100000x1 S100000 [] [0] [] [0] [] 1 ![1]
  dot_S100000x688_S688x344_S100000x344_1_0_0_1_n_n_wf : DotDims.WF S100000x688 S688x344 S100000x344 [1] [0] [0] [1] [] []
  dot_S100000x344_S344x100_S100000x100_1_0_0_1_n_n_wf : DotDims.WF S100000x344 S344x100 S100000x100 [1] [0] [0] [1] [] []
  dot_S100000x100_S100x516_S100000x516_1_0_0_1_n_n_wf : DotDims.WF S100000x100 S100x516 S100000x516 [1] [0] [0] [1] [] []
  dot_S100000x172_S172x516_S100000x516_1_0_0_1_n_n_wf : DotDims.WF S100000x172 S172x516 S100000x516 [1] [0] [0] [1] [] []
  scatter_S500000_S100000x1_S100000_n_0_0_1_wf : ScatterDims.WF S500000 S100000x1 S100000 [] [0] [0] 1
  scatter_S500000x172_S100000x1_S100000x172_1_0_0_1_wf : ScatterDims.WF S500000x172 S100000x1 S100000x172 [1] [0] [0] 1

variable [Facts₀]

def gather_S500000x172_S100000x1_S100000x172_1_0_n_n_0_1_1172 : GatherDims S500000x172 S100000x1 S100000x172 where
  offsetDims := [1]
  collapsedSliceDims := [0]
  operandBatchingDims := []
  startIndicesBatchingDims := []
  startIndexMap := [0]
  indexVectorDim := 1
  sliceSizes := ![1, 172]
  wf := gather_S500000x172_S100000x1_S100000x172_1_0_n_n_0_1_1172_wf
def gather_S500000_S100000x1_S100000_n_0_n_n_0_1_1 : GatherDims S500000 S100000x1 S100000 where
  offsetDims := []
  collapsedSliceDims := [0]
  operandBatchingDims := []
  startIndicesBatchingDims := []
  startIndexMap := [0]
  indexVectorDim := 1
  sliceSizes := ![1]
  wf := gather_S500000_S100000x1_S100000_n_0_n_n_0_1_1_wf
def dot_S100000x688_S688x344_S100000x344_1_0_0_1_n_n : DotDims S100000x688 S688x344 S100000x344 where
  lhsContracting := [1]
  rhsContracting := [0]
  lhsNonContracting := [0]
  rhsNonContracting := [1]
  lhsBatch := []
  rhsBatch := []
  wf := dot_S100000x688_S688x344_S100000x344_1_0_0_1_n_n_wf
def dot_S100000x344_S344x100_S100000x100_1_0_0_1_n_n : DotDims S100000x344 S344x100 S100000x100 where
  lhsContracting := [1]
  rhsContracting := [0]
  lhsNonContracting := [0]
  rhsNonContracting := [1]
  lhsBatch := []
  rhsBatch := []
  wf := dot_S100000x344_S344x100_S100000x100_1_0_0_1_n_n_wf
def dot_S100000x100_S100x516_S100000x516_1_0_0_1_n_n : DotDims S100000x100 S100x516 S100000x516 where
  lhsContracting := [1]
  rhsContracting := [0]
  lhsNonContracting := [0]
  rhsNonContracting := [1]
  lhsBatch := []
  rhsBatch := []
  wf := dot_S100000x100_S100x516_S100000x516_1_0_0_1_n_n_wf
def dot_S100000x172_S172x516_S100000x516_1_0_0_1_n_n : DotDims S100000x172 S172x516 S100000x516 where
  lhsContracting := [1]
  rhsContracting := [0]
  lhsNonContracting := [0]
  rhsNonContracting := [1]
  lhsBatch := []
  rhsBatch := []
  wf := dot_S100000x172_S172x516_S100000x516_1_0_0_1_n_n_wf
def scatter_S500000_S100000x1_S100000_n_0_0_1 : ScatterDims S500000 S100000x1 S100000 where
  updateWindowDims := []
  insertedWindowDims := [0]
  scatterDimsToOperandDims := [0]
  indexVectorDim := 1
  wf := scatter_S500000_S100000x1_S100000_n_0_0_1_wf
def scatter_S500000x172_S100000x1_S100000x172_1_0_0_1 : ScatterDims S500000x172 S100000x1 S100000x172 where
  updateWindowDims := [1]
  insertedWindowDims := [0]
  scatterDimsToOperandDims := [0]
  indexVectorDim := 1
  wf := scatter_S500000x172_S100000x1_S100000x172_1_0_0_1_wf

class Facts : Prop extends Facts₀ where

variable [Facts]
-- ==== Proof.Spec.lean ====
/-
  One interaction's memory update as a function of ONE ROW of each gathered array.

  For an interaction with source-memory row `s`, destination-memory row `d`, edge-feature row `e` and
  time-encoding row `p` (each of length 172):
    hidden h  = max (s·Ws h + d·Wd h + e·We h + p·Wp h + b1 h) 0          (h < 344)
    message j = hidden · W2 j + b2 j                                         (j < 100)
    gx g      = message · Wih g + bih g,     gh g = s · Whh g + bhh g        (g < 516)
    r q = σ (gx q + gh q),  z q = σ (gx (172+q) + gh (172+q)),
    n q = tanh (gx (344+q) + r q * gh (344+q)),
    out q     = (1 - z q) * n q + z q * s q                                  (q < 172)
  where `x·w` is the sum over `k` of `x k * w k` on the extended reals, the four first-layer sums are
  added left to right, and `σ x = 1 / (1 + e^(-x))`. Every row of the result depends on the same row of the
  four gathered arrays and on the whole weight arrays, so a tiling of the rows does not change it.
-/
import Idealize.ShloMosaic.PureOps.Ideal
import Idealize.ShloMosaic.Lib.IdealHost

noncomputable section

namespace Cert.MessageGru

open Idealize.ShloMosaic

/-- The contraction of two rows of length `n`: the sum over `k` of `x k * w k`. -/
def dot {n : Nat} (x w : Fin n → EReal) : EReal := ∑ k, x k * w k

/-- Column `o + k` of a row of length `n`: the `k`-th column of the band of 172 columns that starts at `o`. -/
def band {n : Nat} (o : Nat) (h : o + 172 ≤ n) (k : Fin 172) : Fin n :=
  ⟨o + k.val, Nat.lt_of_lt_of_le (Nat.add_lt_add_left k.isLt o) h⟩

theorem band_val {n : Nat} (o : Nat) (h : o + 172 ≤ n) (k : Fin 172) : (band o h k).val = o + k.val := rfl

/-- The float word of one, kept as a word: both programs spell it so. -/
abbrev one : EReal := Ideal.ofBits .f32 0x3F800000#32

/-- The hidden layer of the message function: the first weight matrix acts on the four parts of the raw
    message separately, the four sums are added left to right, then the bias, then the rectifier. -/
def hidden (s d e p : Fin 172 → EReal) (Ws Wd We Wp : Fin 344 → Fin 172 → EReal) (b1 : Fin 344 → EReal)
    (h : Fin 344) : EReal :=
  max ((((dot s (Ws h) + dot d (Wd h)) + dot e (We h)) + dot p (Wp h)) + b1 h) 0

/-- The message: the second layer, no activation. -/
def message (hid : Fin 344 → EReal) (W2 : Fin 100 → Fin 344 → EReal) (b2 : Fin 100 → EReal) (j : Fin 100) : EReal :=
  dot hid (W2 j) + b2 j

/-- One of the two gate pre-activations of the recurrent cell: a row against a weight matrix, plus a bias. -/
def gate {n : Nat} (x : Fin n → EReal) (W : Fin 516 → Fin n → EReal) (b : Fin 516 → EReal) (g : Fin 516) : EReal :=
  dot x (W g) + b g

/-- The recurrent cell's new state from the two gate pre-activations (each three bands of 172 columns: reset,
    update, candidate) and the old state `s`. -/
def cell (gx gh : Fin 516 → EReal) (s : Fin 172 → EReal) (q : Fin 172) : EReal :=
  (one - Ideal.logistic (gx (band 172 (by decide) q) + gh (band 172 (by decide) q)))
      * Ideal.tanh (gx (band 344 (by decide) q)
          + Ideal.logistic (gx (band 0 (by decide) q) + gh (band 0 (by decide) q)) * gh (band 344 (by decide) q))
    + Ideal.logistic (gx (band 172 (by decide) q) + gh (band 172 (by decide) q)) * s q

/-- One interaction's new memory row. -/
def memoryRow (s d e p : Fin 172 → EReal) (Ws Wd We Wp : Fin 344 → Fin 172 → EReal) (b1 : Fin 344 → EReal)
    (W2 : Fin 100 → Fin 344 → EReal) (b2 : Fin 100 → EReal)
    (Wih : Fin 516 → Fin 100 → EReal) (Whh : Fin 516 → Fin 172 → EReal) (bih bhh : Fin 516 → EReal)
    (q : Fin 172) : EReal :=
  cell (gate (message (hidden s d e p Ws Wd We Wp b1) W2 b2) Wih bih) (gate s Whh bhh) s q

/-- The sigmoid spelled as a quotient, with its ones given as float words, is the one function `σ`. -/
theorem sigmoid_spelled (x : EReal) : Ideal.div one (one + Ideal.exp (-x)) = Ideal.logistic x := by
  show Ideal.div (Ideal.ofBits .f32 0x3F800000#32) (Ideal.ofBits .f32 0x3F800000#32 + Ideal.exp (-x)) = _
  rw [Ideal.ofBits_one_f32]
  rfl

end Cert.MessageGru

end
-- ==== Proof.KernelRow.lean ====
/-
  The kernel body's one store, read at an index of the 1000×172 block: row `p` of the stored block is the
  memory-update row function of row `p` of the four gathered blocks and of the whole weight blocks.
-/
import proofs.«116222_j34711925686554_1_alg».proof.Proof.Gen.KernelIdeal.Skeleton
import proofs.«116222_j34711925686554_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen Cert.MessageGru

/-! ### The product of a `1000×172` block with the transpose of a `344×172` block -/

/-- The left operand's row coordinate is the result's row. -/
theorem lhs_a_0 (i : S1000x344.Idx) (q : dot_S1000x172_S172x344_S1000x344_1_0_0_1_n_n.contr.Idx) :
    (dot_S1000x172_S172x344_S1000x344_1_0_0_1_n_n.lhsIdx i q 0).val = (i 0).val := by
  unfold DotDims.lhsIdx
  rw [dif_neg (show ¬(0 : Fin S1000x172.rank) ∈ dot_S1000x172_S172x344_S1000x344_1_0_0_1_n_n.lhsBatch by decide), dif_pos (show (0 : Fin S1000x172.rank) ∈ dot_S1000x172_S172x344_S1000x344_1_0_0_1_n_n.lhsNonContracting by decide)]
  rfl
/-- The left operand's column coordinate is the contraction position. -/
theorem lhs_a_1 (i : S1000x344.Idx) (q : dot_S1000x172_S172x344_S1000x344_1_0_0_1_n_n.contr.Idx) :
    (dot_S1000x172_S172x344_S1000x344_1_0_0_1_n_n.lhsIdx i q 1).val = (q ⟨0, by decide⟩).val :=
  dot_S1000x172_S172x344_S1000x344_1_0_0_1_n_n.lhsIdx_val_of_single rfl i q
/-- The right operand's row coordinate is the contraction position. -/
theorem rhs_a_0 (i : S1000x344.Idx) (q : dot_S1000x172_S172x344_S1000x344_1_0_0_1_n_n.contr.Idx) :
    (dot_S1000x172_S172x344_S1000x344_1_0_0_1_n_n.rhsIdx i q 0).val = (q ⟨0, by decide⟩).val :=
  dot_S1000x172_S172x344_S1000x344_1_0_0_1_n_n.rhsIdx_val_of_single rfl i q
/-- The right operand's column coordinate is the result's column. -/
theorem rhs_a_1 (i : S1000x344.Idx) (q : dot_S1000x172_S172x344_S1000x344_1_0_0_1_n_n.contr.Idx) :
    (dot_S1000x172_S172x344_S1000x344_1_0_0_1_n_n.rhsIdx i q 1).val = (i 1).val := by
  unfold DotDims.rhsIdx
  rw [dif_neg (show ¬(1 : Fin S172x344.rank) ∈ dot_S1000x172_S172x344_S1000x344_1_0_0_1_n_n.rhsBatch by decide), dif_pos (show (1 : Fin S172x344.rank) ∈ dot_S1000x172_S172x344_S1000x344_1_0_0_1_n_n.rhsNonContracting by decide)]
  rfl

/-- The product into a zero accumulator, at row `r` and column `c`, is the contraction of row `r` of the left block
    with row `c` of the block that was transposed. -/
theorem matmul_a_apply {φ₁ φ₂ : FTy} (x : FVec Ideal S1000x172 φ₁) (w : FVec Ideal S344x172 φ₂) (r : Fin 1000) (c : Fin 344) :
    matmul dot_S1000x172_S172x344_S1000x344_1_0_0_1_n_n none x (transpose S172x344 [1, 0] w transposes_S344x172_p1_0_S172x344)
        (constant S1000x344 .f32 0x00000000#32) (ix2 r c)
      = dot (fun k => x (ix2 r k)) (fun k => w (ix2 c k)) := by
  refine (Ideal.matmul_constant_zero_apply dot_S1000x172_S172x344_S1000x344_1_0_0_1_n_n none x _ (ix2 r c)).trans ?_
  unfold dot
  rw [← Equiv.sum_comp (contrEquiv1 dot_S1000x172_S172x344_S1000x344_1_0_0_1_n_n 172 rfl rfl).symm]
  refine Finset.sum_congr rfl fun k _ => ?_
  have hk := contrEquiv1_symm_val dot_S1000x172_S172x344_S1000x344_1_0_0_1_n_n 172 rfl rfl k
  have el : dot_S1000x172_S172x344_S1000x344_1_0_0_1_n_n.lhsIdx (ix2 r c) ((contrEquiv1 dot_S1000x172_S172x344_S1000x344_1_0_0_1_n_n 172 rfl rfl).symm k) = ix2 r k := funext fun a => Fin.ext (by
    match a with
    | ⟨0, _⟩ => exact lhs_a_0 _ _
    | ⟨1, _⟩ => exact (lhs_a_1 _ _).trans hk)
  have er : dot_S1000x172_S172x344_S1000x344_1_0_0_1_n_n.rhsIdx (ix2 r c) ((contrEquiv1 dot_S1000x172_S172x344_S1000x344_1_0_0_1_n_n 172 rfl rfl).symm k) = ix2 k c := funext fun a => Fin.ext (by
    match a with
    | ⟨0, _⟩ => exact (rhs_a_0 _ _).trans hk
    | ⟨1, _⟩ => exact rhs_a_1 _ _)
  rw [el, er, transpose_ix2_apply]

/-! ### The product of a `1000×344` block with the transpose of a `100×344` block -/

/-- The left operand's row coordinate is the result's row. -/
theorem lhs_b_0 (i : S1000x100.Idx) (q : dot_S1000x344_S344x100_S1000x100_1_0_0_1_n_n.contr.Idx) :
    (dot_S1000x344_S344x100_S1000x100_1_0_0_1_n_n.lhsIdx i q 0).val = (i 0).val := by
  unfold DotDims.lhsIdx
  rw [dif_neg (show ¬(0 : Fin S1000x344.rank) ∈ dot_S1000x344_S344x100_S1000x100_1_0_0_1_n_n.lhsBatch by decide), dif_pos (show (0 : Fin S1000x344.rank) ∈ dot_S1000x344_S344x100_S1000x100_1_0_0_1_n_n.lhsNonContracting by decide)]
  rfl
/-- The left operand's column coordinate is the contraction position. -/
theorem lhs_b_1 (i : S1000x100.Idx) (q : dot_S1000x344_S344x100_S1000x100_1_0_0_1_n_n.contr.Idx) :
    (dot_S1000x344_S344x100_S1000x100_1_0_0_1_n_n.lhsIdx i q 1).val = (q ⟨0, by decide⟩).val :=
  dot_S1000x344_S344x100_S1000x100_1_0_0_1_n_n.lhsIdx_val_of_single rfl i q
/-- The right operand's row coordinate is the contraction position. -/
theorem rhs_b_0 (i : S1000x100.Idx) (q : dot_S1000x344_S344x100_S1000x100_1_0_0_1_n_n.contr.Idx) :
    (dot_S1000x344_S344x100_S1000x100_1_0_0_1_n_n.rhsIdx i q 0).val = (q ⟨0, by decide⟩).val :=
  dot_S1000x344_S344x100_S1000x100_1_0_0_1_n_n.rhsIdx_val_of_single rfl i q
/-- The right operand's column coordinate is the result's column. -/
theorem rhs_b_1 (i : S1000x100.Idx) (q : dot_S1000x344_S344x100_S1000x100_1_0_0_1_n_n.contr.Idx) :
    (dot_S1000x344_S344x100_S1000x100_1_0_0_1_n_n.rhsIdx i q 1).val = (i 1).val := by
  unfold DotDims.rhsIdx
  rw [dif_neg (show ¬(1 : Fin S344x100.rank) ∈ dot_S1000x344_S344x100_S1000x100_1_0_0_1_n_n.rhsBatch by decide), dif_pos (show (1 : Fin S344x100.rank) ∈ dot_S1000x344_S344x100_S1000x100_1_0_0_1_n_n.rhsNonContracting by decide)]
  rfl

/-- The product into a zero accumulator, at row `r` and column `c`, is the contraction of row `r` of the left block
    with row `c` of the block that was transposed. -/
theorem matmul_b_apply {φ₁ φ₂ : FTy} (x : FVec Ideal S1000x344 φ₁) (w : FVec Ideal S100x344 φ₂) (r : Fin 1000) (c : Fin 100) :
    matmul dot_S1000x344_S344x100_S1000x100_1_0_0_1_n_n none x (transpose S344x100 [1, 0] w transposes_S100x344_p1_0_S344x100)
        (constant S1000x100 .f32 0x00000000#32) (ix2 r c)
      = dot (fun k => x (ix2 r k)) (fun k => w (ix2 c k)) := by
  refine (Ideal.matmul_constant_zero_apply dot_S1000x344_S344x100_S1000x100_1_0_0_1_n_n none x _ (ix2 r c)).trans ?_
  unfold dot
  rw [← Equiv.sum_comp (contrEquiv1 dot_S1000x344_S344x100_S1000x100_1_0_0_1_n_n 344 rfl rfl).symm]
  refine Finset.sum_congr rfl fun k _ => ?_
  have hk := contrEquiv1_symm_val dot_S1000x344_S344x100_S1000x100_1_0_0_1_n_n 344 rfl rfl k
  have el : dot_S1000x344_S344x100_S1000x100_1_0_0_1_n_n.lhsIdx (ix2 r c) ((contrEquiv1 dot_S1000x344_S344x100_S1000x100_1_0_0_1_n_n 344 rfl rfl).symm k) = ix2 r k := funext fun a => Fin.ext (by
    match a with
    | ⟨0, _⟩ => exact lhs_b_0 _ _
    | ⟨1, _⟩ => exact (lhs_b_1 _ _).trans hk)
  have er : dot_S1000x344_S344x100_S1000x100_1_0_0_1_n_n.rhsIdx (ix2 r c) ((contrEquiv1 dot_S1000x344_S344x100_S1000x100_1_0_0_1_n_n 344 rfl rfl).symm k) = ix2 k c := funext fun a => Fin.ext (by
    match a with
    | ⟨0, _⟩ => exact (rhs_b_0 _ _).trans hk
    | ⟨1, _⟩ => exact rhs_b_1 _ _)
  rw [el, er, transpose_ix2_apply]

/-! ### The product of a `1000×100` block with the transpose of a `516×100` block -/

/-- The left operand's row coordinate is the result's row. -/
theorem lhs_c_0 (i : S1000x516.Idx) (q : dot_S1000x100_S100x516_S1000x516_1_0_0_1_n_n.contr.Idx) :
    (dot_S1000x100_S100x516_S1000x516_1_0_0_1_n_n.lhsIdx i q 0).val = (i 0).val := by
  unfold DotDims.lhsIdx
  rw [dif_neg (show ¬(0 : Fin S1000x100.rank) ∈ dot_S1000x100_S100x516_S1000x516_1_0_0_1_n_n.lhsBatch by decide), dif_pos (show (0 : Fin S1000x100.rank) ∈ dot_S1000x100_S100x516_S1000x516_1_0_0_1_n_n.lhsNonContracting by decide)]
  rfl
/-- The left operand's column coordinate is the contraction position. -/
theorem lhs_c_1 (i : S1000x516.Idx) (q : dot_S1000x100_S100x516_S1000x516_1_0_0_1_n_n.contr.Idx) :
    (dot_S1000x100_S100x516_S1000x516_1_0_0_1_n_n.lhsIdx i q 1).val = (q ⟨0, by decide⟩).val :=
  dot_S1000x100_S100x516_S1000x516_1_0_0_1_n_n.lhsIdx_val_of_single rfl i q
/-- The right operand's row coordinate is the contraction position. -/
theorem rhs_c_0 (i : S1000x516.Idx) (q : dot_S1000x100_S100x516_S1000x516_1_0_0_1_n_n.contr.Idx) :
    (dot_S1000x100_S100x516_S1000x516_1_0_0_1_n_n.rhsIdx i q 0).val = (q ⟨0, by decide⟩).val :=
  dot_S1000x100_S100x516_S1000x516_1_0_0_1_n_n.rhsIdx_val_of_single rfl i q
/-- The right operand's column coordinate is the result's column. -/
theorem rhs_c_1 (i : S1000x516.Idx) (q : dot_S1000x100_S100x516_S1000x516_1_0_0_1_n_n.contr.Idx) :
    (dot_S1000x100_S100x516_S1000x516_1_0_0_1_n_n.rhsIdx i q 1).val = (i 1).val := by
  unfold DotDims.rhsIdx
  rw [dif_neg (show ¬(1 : Fin S100x516.rank) ∈ dot_S1000x100_S100x516_S1000x516_1_0_0_1_n_n.rhsBatch by decide), dif_pos (show (1 : Fin S100x516.rank) ∈ dot_S1000x100_S100x516_S1000x516_1_0_0_1_n_n.rhsNonContracting by decide)]
  rfl

/-- The product into a zero accumulator, at row `r` and column `c`, is the contraction of row `r` of the left block
    with row `c` of the block that was transposed. -/
theorem matmul_c_apply {φ₁ φ₂ : FTy} (x : FVec Ideal S1000x100 φ₁) (w : FVec Ideal S516x100 φ₂) (r : Fin 1000) (c : Fin 516) :
    matmul dot_S1000x100_S100x516_S1000x516_1_0_0_1_n_n none x (transpose S100x516 [1, 0] w transposes_S516x100_p1_0_S100x516)
        (constant S1000x516 .f32 0x00000000#32) (ix2 r c)
      = dot (fun k => x (ix2 r k)) (fun k => w (ix2 c k)) := by
  refine (Ideal.matmul_constant_zero_apply dot_S1000x100_S100x516_S1000x516_1_0_0_1_n_n none x _ (ix2 r c)).trans ?_
  unfold dot
  rw [← Equiv.sum_comp (contrEquiv1 dot_S1000x100_S100x516_S1000x516_1_0_0_1_n_n 100 rfl rfl).symm]
  refine Finset.sum_congr rfl fun k _ => ?_
  have hk := contrEquiv1_symm_val dot_S1000x100_S100x516_S1000x516_1_0_0_1_n_n 100 rfl rfl k
  have el : dot_S1000x100_S100x516_S1000x516_1_0_0_1_n_n.lhsIdx (ix2 r c) ((contrEquiv1 dot_S1000x100_S100x516_S1000x516_1_0_0_1_n_n 100 rfl rfl).symm k) = ix2 r k := funext fun a => Fin.ext (by
    match a with
    | ⟨0, _⟩ => exact lhs_c_0 _ _
    | ⟨1, _⟩ => exact (lhs_c_1 _ _).trans hk)
  have er : dot_S1000x100_S100x516_S1000x516_1_0_0_1_n_n.rhsIdx (ix2 r c) ((contrEquiv1 dot_S1000x100_S100x516_S1000x516_1_0_0_1_n_n 100 rfl rfl).symm k) = ix2 k c := funext fun a => Fin.ext (by
    match a with
    | ⟨0, _⟩ => exact (rhs_c_0 _ _).trans hk
    | ⟨1, _⟩ => exact rhs_c_1 _ _)
  rw [el, er, transpose_ix2_apply]

/-! ### The product of a `1000×172` block with the transpose of a `516×172` block -/

/-- The left operand's row coordinate is the result's row. -/
theorem lhs_d_0 (i : S1000x516.Idx) (q : dot_S1000x172_S172x516_S1000x516_1_0_0_1_n_n.contr.Idx) :
    (dot_S1000x172_S172x516_S1000x516_1_0_0_1_n_n.lhsIdx i q 0).val = (i 0).val := by
  unfold DotDims.lhsIdx
  rw [dif_neg (show ¬(0 : Fin S1000x172.rank) ∈ dot_S1000x172_S172x516_S1000x516_1_0_0_1_n_n.lhsBatch by decide), dif_pos (show (0 : Fin S1000x172.rank) ∈ dot_S1000x172_S172x516_S1000x516_1_0_0_1_n_n.lhsNonContracting by decide)]
  rfl
/-- The left operand's column coordinate is the contraction position. -/
theorem lhs_d_1 (i : S1000x516.Idx) (q : dot_S1000x172_S172x516_S1000x516_1_0_0_1_n_n.contr.Idx) :
    (dot_S1000x172_S172x516_S1000x516_1_0_0_1_n_n.lhsIdx i q 1).val = (q ⟨0, by decide⟩).val :=
  dot_S1000x172_S172x516_S1000x516_1_0_0_1_n_n.lhsIdx_val_of_single rfl i q
/-- The right operand's row coordinate is the contraction position. -/
theorem rhs_d_0 (i : S1000x516.Idx) (q : dot_S1000x172_S172x516_S1000x516_1_0_0_1_n_n.contr.Idx) :
    (dot_S1000x172_S172x516_S1000x516_1_0_0_1_n_n.rhsIdx i q 0).val = (q ⟨0, by decide⟩).val :=
  dot_S1000x172_S172x516_S1000x516_1_0_0_1_n_n.rhsIdx_val_of_single rfl i q
/-- The right operand's column coordinate is the result's column. -/
theorem rhs_d_1 (i : S1000x516.Idx) (q : dot_S1000x172_S172x516_S1000x516_1_0_0_1_n_n.contr.Idx) :
    (dot_S1000x172_S172x516_S1000x516_1_0_0_1_n_n.rhsIdx i q 1).val = (i 1).val := by
  unfold DotDims.rhsIdx
  rw [dif_neg (show ¬(1 : Fin S172x516.rank) ∈ dot_S1000x172_S172x516_S1000x516_1_0_0_1_n_n.rhsBatch by decide), dif_pos (show (1 : Fin S172x516.rank) ∈ dot_S1000x172_S172x516_S1000x516_1_0_0_1_n_n.rhsNonContracting by decide)]
  rfl

/-- The product into a zero accumulator, at row `r` and column `c`, is the contraction of row `r` of the left block
    with row `c` of the block that was transposed. -/
theorem matmul_d_apply {φ₁ φ₂ : FTy} (x : FVec Ideal S1000x172 φ₁) (w : FVec Ideal S516x172 φ₂) (r : Fin 1000) (c : Fin 516) :
    matmul dot_S1000x172_S172x516_S1000x516_1_0_0_1_n_n none x (transpose S172x516 [1, 0] w transposes_S516x172_p1_0_S172x516)
        (constant S1000x516 .f32 0x00000000#32) (ix2 r c)
      = dot (fun k => x (ix2 r k)) (fun k => w (ix2 c k)) := by
  refine (Ideal.matmul_constant_zero_apply dot_S1000x172_S172x516_S1000x516_1_0_0_1_n_n none x _ (ix2 r c)).trans ?_
  unfold dot
  rw [← Equiv.sum_comp (contrEquiv1 dot_S1000x172_S172x516_S1000x516_1_0_0_1_n_n 172 rfl rfl).symm]
  refine Finset.sum_congr rfl fun k _ => ?_
  have hk := contrEquiv1_symm_val dot_S1000x172_S172x516_S1000x516_1_0_0_1_n_n 172 rfl rfl k
  have el : dot_S1000x172_S172x516_S1000x516_1_0_0_1_n_n.lhsIdx (ix2 r c) ((contrEquiv1 dot_S1000x172_S172x516_S1000x516_1_0_0_1_n_n 172 rfl rfl).symm k) = ix2 r k := funext fun a => Fin.ext (by
    match a with
    | ⟨0, _⟩ => exact lhs_d_0 _ _
    | ⟨1, _⟩ => exact (lhs_d_1 _ _).trans hk)
  have er : dot_S1000x172_S172x516_S1000x516_1_0_0_1_n_n.rhsIdx (ix2 r c) ((contrEquiv1 dot_S1000x172_S172x516_S1000x516_1_0_0_1_n_n 172 rfl rfl).symm k) = ix2 k c := funext fun a => Fin.ext (by
    match a with
    | ⟨0, _⟩ => exact (rhs_d_0 _ _).trans hk
    | ⟨1, _⟩ => exact rhs_d_1 _ _)
  rw [el, er, transpose_ix2_apply]

/-! ### A bias row spread over the rows of a block -/

/-- A vector of length `b` cast to one row and spread over `a` rows reads, at row `p` and column `c`, the vector at `c`. -/
theorem bias_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The logistic function of a block, read at an index. -/
theorem logistic_apply {s : Shape} (a : FVec Ideal s .f32) (i : s.Idx) : logistic a i = Ideal.logistic (a i) := rfl

/-- The hyperbolic tangent of a block, read at an index. -/
theorem tanh_apply {s : Shape} (a : FVec Ideal s .f32) (i : s.Idx) : tanh a i = Ideal.tanh (a i) := rfl

/-- A band of 172 columns of a 516-column block, read at row `p` and column `q` of the band. -/
theorem band_apply (o : Nat) (ho : o + 172 ≤ 516) (X : FVec Ideal S1000x516 .f32)
    (h : S1000x516.Slices ![0, o] S1000x172) (p : Fin 1000) (q : Fin 172) :
    extractStridedSlice S1000x172 ![0, o] X h (ix2 p q) = X (ix2 p (band o ho q)) :=
  slice2_axis1_apply o X h p q (band o ho q) rfl

/-! ### The payloads, read at an index -/

/-- The first layer's bias block at row `p`, column `h`. -/
theorem pay5_apply (x8 : Vec Ideal S344 .f32) (p : Fin 1000) (h : Fin 344) :
    k0_pay5 (F := Ideal) x8 (ix2 p h) = x8 (ix1 h) := by
  unfold k0_pay5
  exact bias_apply x8 _ _ p h

/-- The first layer's four products, added left to right, at row `p`, column `h`. -/
theorem pay4_apply (x0 x1 x2 x3 : Vec Ideal S1000x172 .f32) (x4 x5 x6 x7 : Vec Ideal S344x172 .f32)
    (p : Fin 1000) (h : Fin 344) :
    k0_pay4 (F := Ideal) x0 x1 x2 x3 x4 x5 x6 x7 (ix2 p h)
      = ((dot (fun k => x0 (ix2 p k)) (fun k => x4 (ix2 h k)) + dot (fun k => x1 (ix2 p k)) (fun k => x5 (ix2 h k)))
          + dot (fun k => x2 (ix2 p k)) (fun k => x6 (ix2 h k))) + dot (fun k => x3 (ix2 p k)) (fun k => x7 (ix2 h k)) := by
  unfold k0_pay4 k0_pay3 k0_pay2
  simp only [shapeCast_self]
  rw [addf_apply, addf_apply, addf_apply, matmul_a_apply, matmul_a_apply, matmul_a_apply, matmul_a_apply]
  rfl

/-- The rectifier of the sum of two blocks, read at an index: the maximum with zero. -/
theorem relu_apply (u v : FVec Ideal S1000x344 .f32) (p : Fin 1000) (h : Fin 344) :
    maximumf (addf u v) (broadcast S1000x344 (Scalar.ofBits (F := Ideal) .f32 0x00000000#32)) (ix2 p h)
      = max (u (ix2 p h) + v (ix2 p h)) 0 := by
  show max (u (ix2 p h) + v (ix2 p h)) (Ideal.ofBits .f32 0x00000000#32) = _
  rw [Ideal.ofBits_zero_f32]

/-- The input-side gate pre-activations at row `p`, column `g`: the gate of the message of the rectified first layer. -/
theorem pay6_apply (u v : FVec Ideal S1000x344 .f32) (x9 : Vec Ideal S100x344 .f32) (x10 : Vec Ideal S100 .f32)
    (x11 : Vec Ideal S516x100 .f32) (x13 : Vec Ideal S516 .f32) (p : Fin 1000) (g : Fin 516) :
    k0_pay6 (F := Ideal) u v x9 x10 x11 x13 (ix2 p g)
      = gate (message (fun h => max (u (ix2 p h) + v (ix2 p h)) 0) (fun j h => x9 (ix2 j h)) (fun j => x10 (ix1 j)))
          (fun g j => x11 (ix2 g j)) (fun g => x13 (ix1 g)) g := by
  unfold k0_pay6 gate
  dsimp only
  rw [addf_apply, matmul_c_apply, bias_apply]
  refine congrArg (· + x13 (ix1 g)) ?_
  refine congrArg (fun f => dot f fun k => x11 (ix2 g k)) (funext fun j => ?_)
  unfold message
  rw [truncf_apply, addf_apply, matmul_b_apply, bias_apply]
  refine congrArg (· + x10 (ix1 j)) ?_
  refine congrArg (fun f => dot f fun k => x9 (ix2 j k)) (funext fun h => ?_)
  exact relu_apply u v p h

/-- The state-side gate pre-activations at row `p`, column `g`. -/
theorem pay7_apply (s : FVec Ideal S1000x172 .bf16) (x12 : Vec Ideal S516x172 .f32) (x14 : Vec Ideal S516 .f32)
    (p : Fin 1000) (g : Fin 516) :
    k0_pay7 (F := Ideal) s x12 x14 (ix2 p g)
      = gate (fun k => s (ix2 p k)) (fun g k => x12 (ix2 g k)) (fun g => x14 (ix1 g)) g := by
  unfold k0_pay7 gate
  dsimp only
  rw [addf_apply, matmul_d_apply, bias_apply]
  rfl

/-- The update gate at row `p`, column `q`: the logistic function of the sum of the two pre-activations' second bands. -/
theorem pay8_apply (s : FVec Ideal S1000x172 .bf16) (u v : FVec Ideal S1000x344 .f32) (x9 : Vec Ideal S100x344 .f32)
    (x10 : Vec Ideal S100 .f32) (x11 : Vec Ideal S516x100 .f32) (x12 : Vec Ideal S516x172 .f32)
    (x13 x14 : Vec Ideal S516 .f32) (p : Fin 1000) (q : Fin 172) :
    k0_pay8 (F := Ideal) s u v x9 x10 x11 x12 x13 x14 (ix2 p q)
      = Ideal.logistic (k0_pay6 (F := Ideal) u v x9 x10 x11 x13 (ix2 p (band 172 (by decide) q))
          + k0_pay7 (F := Ideal) s x12 x14 (ix2 p (band 172 (by decide) q))) := by
  unfold k0_pay8
  rw [logistic_apply, addf_apply, band_apply 172 (by decide), band_apply 172 (by decide)]

/-- The candidate state weighted by one minus the update gate, at row `p`, column `q`. -/
theorem pay9_apply (s : FVec Ideal S1000x172 .bf16) (u v : FVec Ideal S1000x344 .f32) (x9 : Vec Ideal S100x344 .f32)
    (x10 : Vec Ideal S100 .f32) (x11 : Vec Ideal S516x100 .f32) (x12 : Vec Ideal S516x172 .f32)
    (x13 x14 : Vec Ideal S516 .f32) (p : Fin 1000) (q : Fin 172) :
    k0_pay9 (F := Ideal) s u v x9 x10 x11 x12 x13 x14 (ix2 p q)
      = (one - k0_pay8 (F := Ideal) s u v x9 x10 x11 x12 x13 x14 (ix2 p q))
          * Ideal.tanh (k0_pay6 (F := Ideal) u v x9 x10 x11 x13 (ix2 p (band 344 (by decide) q))
              + Ideal.logistic (k0_pay6 (F := Ideal) u v x9 x10 x11 x13 (ix2 p (band 0 (by decide) q))
                  + k0_pay7 (F := Ideal) s x12 x14 (ix2 p (band 0 (by decide) q)))
                * k0_pay7 (F := Ideal) s x12 x14 (ix2 p (band 344 (by decide) q))) := by
  unfold k0_pay9
  rw [mulf_apply, subf_apply, tanh_apply, addf_apply, mulf_apply, logistic_apply, addf_apply,
    band_apply 344 (by decide), band_apply 0 (by decide), band_apply 0 (by decide), band_apply 344 (by decide)]
  rfl

/-- The stored value at row `p`, column `q` of the block. -/
theorem payload_row (x0 x1 x2 x3 : Vec Ideal S1000x172 .f32) (x4 x5 x6 x7 : Vec Ideal S344x172 .f32)
    (x8 : Vec Ideal S344 .f32) (x9 : Vec Ideal S100x344 .f32) (x10 : Vec Ideal S100 .f32)
    (x11 : Vec Ideal S516x100 .f32) (x12 : Vec Ideal S516x172 .f32) (x13 x14 : Vec Ideal S516 .f32)
    (p : Fin 1000) (q : Fin 172) :
    k0_pay1 (F := Ideal)
        (k0_pay9 (k0_pay3 x0) (k0_pay4 x0 x1 x2 x3 x4 x5 x6 x7) (k0_pay5 x8) x9 x10 x11 x12 x13 x14)
        (k0_pay10 (k0_pay2 x0) (k0_pay3 x0) (k0_pay4 x0 x1 x2 x3 x4 x5 x6 x7) (k0_pay5 x8) x9 x10 x11 x12 x13 x14)
        (ix2 p q)
      = memoryRow (fun k => x0 (ix2 p k)) (fun k => x1 (ix2 p k)) (fun k => x2 (ix2 p k)) (fun k => x3 (ix2 p k))
          (fun h k => x4 (ix2 h k)) (fun h k => x5 (ix2 h k)) (fun h k => x6 (ix2 h k)) (fun h k => x7 (ix2 h k))
          (fun h => x8 (ix1 h)) (fun j h => x9 (ix2 j h)) (fun j => x10 (ix1 j))
          (fun g j => x11 (ix2 g j)) (fun g k => x12 (ix2 g k)) (fun g => x13 (ix1 g)) (fun g => x14 (ix1 g)) q := by
  have h6 : ∀ g : Fin 516, k0_pay6 (F := Ideal) (k0_pay4 x0 x1 x2 x3 x4 x5 x6 x7) (k0_pay5 x8) x9 x10 x11 x13 (ix2 p g)
      = gate (message (MessageGru.hidden (fun k => x0 (ix2 p k)) (fun k => x1 (ix2 p k)) (fun k => x2 (ix2 p k))
            (fun k => x3 (ix2 p k)) (fun h k => x4 (ix2 h k)) (fun h k => x5 (ix2 h k)) (fun h k => x6 (ix2 h k))
            (fun h k => x7 (ix2 h k)) (fun h => x8 (ix1 h))) (fun j h => x9 (ix2 j h)) (fun j => x10 (ix1 j)))
          (fun g j => x11 (ix2 g j)) (fun g => x13 (ix1 g)) g := fun g => by
    rw [pay6_apply]
    refine congrArg (fun f => gate (message f (fun j h => x9 (ix2 j h)) (fun j => x10 (ix1 j)))
      (fun g j => x11 (ix2 g j)) (fun g => x13 (ix1 g)) g) (funext fun h => ?_)
    unfold MessageGru.hidden
    rw [pay4_apply, pay5_apply]
  have h7 : ∀ g : Fin 516, k0_pay7 (F := Ideal) (k0_pay3 x0) x12 x14 (ix2 p g)
      = gate (fun k => x0 (ix2 p k)) (fun g k => x12 (ix2 g k)) (fun g => x14 (ix1 g)) g := fun g => by
    rw [pay7_apply]
    unfold k0_pay3 k0_pay2
    simp only [shapeCast_self]
    rfl
  unfold k0_pay1 k0_pay10 memoryRow cell
  dsimp only
  rw [addf_apply, mulf_apply, pay9_apply, pay8_apply, h6, h6, h6, h7, h7, h7]
  unfold k0_pay2
  rw [shapeCast_self]

end Cert.KernelIdeal.RowValue

end
-- ==== Proof.KernelBlocks.lean ====
/-
  From the body's result at one grid point to the whole array of new memory rows.

  The grid has 100 points; point `t` stages rows `1000 t … 1000 t + 999` of the three gathered arrays and of the
  time-encoding array, and the whole of every weight array, and writes back rows `1000 t … 1000 t + 999` of the
  output. Row `p` of what it writes back is the memory-update row function of row `1000 t + p` of the four
  arrays (the payload read at an index), so the write-back is block `t` of ONE array function, `newRows`, and the
  100 blocks tile the 100000 rows: the output array ends holding `newRows`.
-/
import proofs.«116222_j34711925686554_1_alg».proof.Proof.Gen.KernelIdeal.Frame
import proofs.«116222_j34711925686554_1_alg».proof.Proof.KernelRow
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BlockValue

open Cert.KernelIdeal Cert.KernelIdeal.Gen Cert.MessageGru Cert.KernelIdeal.RowValue

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-! ## The arrays the region finds, by their literal types -/

abbrev srcA (c : Dev nD) : Vec Ideal S100000x172 .f32 := V m c main_v6
abbrev dstA (c : Dev nD) : Vec Ideal S100000x172 .f32 := V m c main_v13
abbrev edgeA (c : Dev nD) : Vec Ideal S100000x172 .f32 := V m c main_v20
abbrev phiA (c : Dev nD) : Vec Ideal S100000x172 .f32 := V m c main_v37
abbrev w1sA (c : Dev nD) : Vec Ideal S344x172 .f32 := V m c main_v38
abbrev w1dA (c : Dev nD) : Vec Ideal S344x172 .f32 := V m c main_v39
abbrev w1eA (c : Dev nD) : Vec Ideal S344x172 .f32 := V m c main_v40
abbrev w1pA (c : Dev nD) : Vec Ideal S344x172 .f32 := V m c main_v41
abbrev b1A (c : Dev nD) : Vec Ideal S344 .f32 := V m c main_arg6
abbrev w2A (c : Dev nD) : Vec Ideal S100x344 .f32 := V m c main_arg7
abbrev b2A (c : Dev nD) : Vec Ideal S100 .f32 := V m c main_arg8
abbrev wihA (c : Dev nD) : Vec Ideal S516x100 .f32 := V m c main_arg9
abbrev whhA (c : Dev nD) : Vec Ideal S516x172 .f32 := V m c main_arg10
abbrev bihA (c : Dev nD) : Vec Ideal S516 .f32 := V m c main_arg11
abbrev bhhA (c : Dev nD) : Vec Ideal S516 .f32 := V m c main_arg12

/-- The new memory rows, one per interaction: row `b` is the row function of row `b` of the four arrays. -/
def newRows (c : Dev nD) : Vec Ideal S100000x172 .f32 := fun i =>
  memoryRow (fun k => srcA m c (ix2 (n0 := 100000) (i 0) k)) (fun k => dstA m c (ix2 (n0 := 100000) (i 0) k))
    (fun k => edgeA m c (ix2 (n0 := 100000) (i 0) k)) (fun k => phiA m c (ix2 (n0 := 100000) (i 0) k))
    (fun h k => w1sA m c (ix2 h k)) (fun h k => w1dA m c (ix2 h k)) (fun h k => w1eA m c (ix2 h k)) (fun h k => w1pA m c (ix2 h k))
    (fun h => b1A m c (ix1 h)) (fun j h => w2A m c (ix2 j h)) (fun j => b2A m c (ix1 j))
    (fun g j => wihA m c (ix2 g j)) (fun g k => whhA m c (ix2 g k)) (fun g => bihA m c (ix1 g)) (fun g => bhhA m c (ix1 g)) (i 1)

/-! ## The printed index maps over the grid -/

/-- The row windows (the four inputs and the output) sit at block row `t`, block column 0; every weight window
    at block 0 on every axis. Decided once over the 100 points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ (win0_12.index t (0 : Fin 2) = 0 ∧ win0_12.index t (1 : Fin 2) = 0)
    ∧ win0_13.index t (0 : Fin 1) = 0
    ∧ win0_14.index t (0 : Fin 1) = 0
    ∧ (win0_15.index t (0 : Fin 2) = t.val ∧ win0_15.index t (1 : Fin 2) = 0) :=
  (by decide +kernel : ∀ t : Fin grid0.N, _)

theorem point_lt (t : Fin cfg0.N) : t.val < 100 := lt_of_lt_of_eq t.isLt N_0

/-- Row `p` of point `t`'s block is row `1000 t + p` of the array. -/
def rowAt (t : Fin cfg0.N) (p : Fin 1000) : Fin 100000 :=
  ⟨t.val * 1000 + p.val, by have := point_lt t; have := p.isLt; omega⟩

/-! ## Each window's block at a point, read at an index -/

theorem src_block (c : Dev nD) (t : Fin cfg0.N) (p : Fin 1000) (k : Fin 172) :
    (iblk m c 0 t : Vec Ideal S1000x172 .f32) (ix2 p k) = srcA m c (ix2 (rowAt t p) k) := by
  have e := idx_facts t
  unfold iblk
  rw [View.read_apply]
  show V m c main_v6 _ = V m c main_v6 _
  congr 1
  funext a
  apply Fin.ext
  match a with
  | ⟨0, _⟩ => show win0_0.index t (0 : Fin 2) * 1000 + 1 * p.val = t.val * 1000 + p.val; omega
  | ⟨1, _⟩ => show win0_0.index t (1 : Fin 2) * 172 + 1 * k.val = k.val; omega

theorem dst_block (c : Dev nD) (t : Fin cfg0.N) (p : Fin 1000) (k : Fin 172) :
    (iblk m c 1 t : Vec Ideal S1000x172 .f32) (ix2 p k) = dstA m c (ix2 (rowAt t p) k) := by
  have e := idx_facts t
  unfold iblk
  rw [View.read_apply]
  show V m c main_v13 _ = V m c main_v13 _
  congr 1
  funext a
  apply Fin.ext
  match a with
  | ⟨0, _⟩ => show win0_1.index t (0 : Fin 2) * 1000 + 1 * p.val = t.val * 1000 + p.val; omega
  | ⟨1, _⟩ => show win0_1.index t (1 : Fin 2) * 172 + 1 * k.val = k.val; omega

theorem edge_block (c : Dev nD) (t : Fin cfg0.N) (p : Fin 1000) (k : Fin 172) :
    (iblk m c 2 t : Vec Ideal S1000x172 .f32) (ix2 p k) = edgeA m c (ix2 (rowAt t p) k) := by
  have e := idx_facts t
  unfold iblk
  rw [View.read_apply]
  show V m c main_v20 _ = V m c main_v20 _
  congr 1
  funext a
  apply Fin.ext
  match a with
  | ⟨0, _⟩ => show win0_2.index t (0 : Fin 2) * 1000 + 1 * p.val = t.val * 1000 + p.val; omega
  | ⟨1, _⟩ => show win0_2.index t (1 : Fin 2) * 172 + 1 * k.val = k.val; omega

theorem phi_block (c : Dev nD) (t : Fin cfg0.N) (p : Fin 1000) (k : Fin 172) :
    (iblk m c 3 t : Vec Ideal S1000x172 .f32) (ix2 p k) = phiA m c (ix2 (rowAt t p) k) := by
  have e := idx_facts t
  unfold iblk
  rw [View.read_apply]
  show V m c main_v37 _ = V m c main_v37 _
  congr 1
  funext a
  apply Fin.ext
  match a with
  | ⟨0, _⟩ => show win0_3.index t (0 : Fin 2) * 1000 + 1 * p.val = t.val * 1000 + p.val; omega
  | ⟨1, _⟩ => show win0_3.index t (1 : Fin 2) * 172 + 1 * k.val = k.val; omega

theorem w1s_block (c : Dev nD) (t : Fin cfg0.N) (h : Fin 344) (k : Fin 172) :
    (iblk m c 4 t : Vec Ideal S344x172 .f32) (ix2 h k) = w1sA m c (ix2 h k) := by
  have e := idx_facts t
  unfold iblk
  rw [View.read_apply]
  show V m c main_v38 _ = V m c main_v38 _
  congr 1
  funext a
  apply Fin.ext
  match a with
  | ⟨0, _⟩ => show win0_4.index t (0 : Fin 2) * 344 + 1 * h.val = h.val; omega
  | ⟨1, _⟩ => show win0_4.index t (1 : Fin 2) * 172 + 1 * k.val = k.val; omega

theorem w1d_block (c : Dev nD) (t : Fin cfg0.N) (h : Fin 344) (k : Fin 172) :
    (iblk m c 5 t : Vec Ideal S344x172 .f32) (ix2 h k) = w1dA m c (ix2 h k) := by
  have e := idx_facts t
  unfold iblk
  rw [View.read_apply]
  show V m c main_v39 _ = V m c main_v39 _
  congr 1
  funext a
  apply Fin.ext
  match a with
  | ⟨0, _⟩ => show win0_5.index t (0 : Fin 2) * 344 + 1 * h.val = h.val; omega
  | ⟨1, _⟩ => show win0_5.index t (1 : Fin 2) * 172 + 1 * k.val = k.val; omega

theorem w1e_block (c : Dev nD) (t : Fin cfg0.N) (h : Fin 344) (k : Fin 172) :
    (iblk m c 6 t : Vec Ideal S344x172 .f32) (ix2 h k) = w1eA m c (ix2 h k) := by
  have e := idx_facts t
  unfold iblk
  rw [View.read_apply]
  show V m c main_v40 _ = V m c main_v40 _
  congr 1
  funext a
  apply Fin.ext
  match a with
  | ⟨0, _⟩ => show win0_6.index t (0 : Fin 2) * 344 + 1 * h.val = h.val; omega
  | ⟨1, _⟩ => show win0_6.index t (1 : Fin 2) * 172 + 1 * k.val = k.val; omega

theorem w1p_block (c : Dev nD) (t : Fin cfg0.N) (h : Fin 344) (k : Fin 172) :
    (iblk m c 7 t : Vec Ideal S344x172 .f32) (ix2 h k) = w1pA m c (ix2 h k) := by
  have e := idx_facts t
  unfold iblk
  rw [View.read_apply]
  show V m c main_v41 _ = V m c main_v41 _
  congr 1
  funext a
  apply Fin.ext
  match a with
  | ⟨0, _⟩ => show win0_7.index t (0 : Fin 2) * 344 + 1 * h.val = h.val; omega
  | ⟨1, _⟩ => show win0_7.index t (1 : Fin 2) * 172 + 1 * k.val = k.val; omega

theorem b1_block (c : Dev nD) (t : Fin cfg0.N) (h : Fin 344) :
    (iblk m c 8 t : Vec Ideal S344 .f32) (ix1 h) = b1A m c (ix1 h) := by
  have e := idx_facts t
  unfold iblk
  rw [View.read_apply]
  show V m c main_arg6 _ = V m c main_arg6 _
  congr 1
  funext a
  apply Fin.ext
  match a with
  | ⟨0, _⟩ => show win0_8.index t (0 : Fin 1) * 344 + 1 * h.val = h.val; omega

theorem w2_block (c : Dev nD) (t : Fin cfg0.N) (j : Fin 100) (h : Fin 344) :
    (iblk m c 9 t : Vec Ideal S100x344 .f32) (ix2 j h) = w2A m c (ix2 j h) := by
  have e := idx_facts t
  unfold iblk
  rw [View.read_apply]
  show V m c main_arg7 _ = V m c main_arg7 _
  congr 1
  funext a
  apply Fin.ext
  match a with
  | ⟨0, _⟩ => show win0_9.index t (0 : Fin 2) * 100 + 1 * j.val = j.val; omega
  | ⟨1, _⟩ => show win0_9.index t (1 : Fin 2) * 344 + 1 * h.val = h.val; omega

theorem b2_block (c : Dev nD) (t : Fin cfg0.N) (j : Fin 100) :
    (iblk m c 10 t : Vec Ideal S100 .f32) (ix1 j) = b2A m c (ix1 j) := by
  have e := idx_facts t
  unfold iblk
  rw [View.read_apply]
  show V m c main_arg8 _ = V m c main_arg8 _
  congr 1
  funext a
  apply Fin.ext
  match a with
  | ⟨0, _⟩ => show win0_10.index t (0 : Fin 1) * 100 + 1 * j.val = j.val; omega

theorem wih_block (c : Dev nD) (t : Fin cfg0.N) (g : Fin 516) (j : Fin 100) :
    (iblk m c 11 t : Vec Ideal S516x100 .f32) (ix2 g j) = wihA m c (ix2 g j) := by
  have e := idx_facts t
  unfold iblk
  rw [View.read_apply]
  show V m c main_arg9 _ = V m c main_arg9 _
  congr 1
  funext a
  apply Fin.ext
  match a with
  | ⟨0, _⟩ => show win0_11.index t (0 : Fin 2) * 516 + 1 * g.val = g.val; omega
  | ⟨1, _⟩ => show win0_11.index t (1 : Fin 2) * 100 + 1 * j.val = j.val; omega

theorem whh_block (c : Dev nD) (t : Fin cfg0.N) (g : Fin 516) (k : Fin 172) :
    (iblk m c 12 t : Vec Ideal S516x172 .f32) (ix2 g k) = whhA m c (ix2 g k) := by
  have e := idx_facts t
  unfold iblk
  rw [View.read_apply]
  show V m c main_arg10 _ = V m c main_arg10 _
  congr 1
  funext a
  apply Fin.ext
  match a with
  | ⟨0, _⟩ => show win0_12.index t (0 : Fin 2) * 516 + 1 * g.val = g.val; omega
  | ⟨1, _⟩ => show win0_12.index t (1 : Fin 2) * 172 + 1 * k.val = k.val; omega

theorem bih_block (c : Dev nD) (t : Fin cfg0.N) (g : Fin 516) :
    (iblk m c 13 t : Vec Ideal S516 .f32) (ix1 g) = bihA m c (ix1 g) := by
  have e := idx_facts t
  unfold iblk
  rw [View.read_apply]
  show V m c main_arg11 _ = V m c main_arg11 _
  congr 1
  funext a
  apply Fin.ext
  match a with
  | ⟨0, _⟩ => show win0_13.index t (0 : Fin 1) * 516 + 1 * g.val = g.val; omega

theorem bhh_block (c : Dev nD) (t : Fin cfg0.N) (g : Fin 516) :
    (iblk m c 14 t : Vec Ideal S516 .f32) (ix1 g) = bhhA m c (ix1 g) := by
  have e := idx_facts t
  unfold iblk
  rw [View.read_apply]
  show V m c main_arg12 _ = V m c main_arg12 _
  congr 1
  funext a
  apply Fin.ext
  match a with
  | ⟨0, _⟩ => show win0_14.index t (0 : Fin 1) * 516 + 1 * g.val = g.val; omega

/-- Where element `(p, q)` of the output's block at point `t` sits in the array: row `1000 t + p`, column `q`. -/
theorem out_emb (t : Fin cfg0.N) (p : Fin 1000) (q : Fin 172) :
    ((cfg0.win 15).blk t).view.emb (ix2 p q) = ix2 (rowAt t p) q := by
  have e := idx_facts t
  funext a
  apply Fin.ext
  match a with
  | ⟨0, _⟩ => show win0_15.index t (0 : Fin 2) * 1000 + 1 * p.val = t.val * 1000 + p.val; omega
  | ⟨1, _⟩ => show win0_15.index t (1 : Fin 2) * 172 + 1 * q.val = q.val; omega

/-! ## What a point writes back, and the array after the run -/

/-- WHAT POINT `t` WRITES BACK is block `t` of `newRows`. -/
theorem flushed_eq (c : Dev nD) (t : Fin cfg0.N) :
    (dats m 0 c).flushed 15 t = ((cfg0.win 15).blk t).view.read (Elt Ideal) (newRows m c) := by
  show (cfg0.win 15).cut (grid0.coords t) ((dats m 0 c).after 15 t) = _
  rw [after0_15]
  unfold out0_15
  rw [View.canon_unit_zero hz2]
  simp only [View.ld_unit_zero (S := S1000x172) hz2, View.ld_unit_zero (S := S344x172) hz2, View.ld_unit_zero (S := S344) hz1,
    View.ld_unit_zero (S := S100x344) hz2, View.ld_unit_zero (S := S100) hz1, View.ld_unit_zero (S := S516x100) hz2,
    View.ld_unit_zero (S := S516x172) hz2, View.ld_unit_zero (S := S516) hz1]
  funext j
  obtain ⟨p, q, rfl⟩ : ∃ (p : Fin 1000) (q : Fin 172), j = ix2 p q := ⟨j 0, j 1, eq_ix2 (n0 := 1000) (n1 := 172) j⟩
  rw [View.read_apply, out_emb]
  refine (payload_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) p q).trans ?_
  unfold newRows
  simp only [src_block m c t, dst_block m c t, edge_block m c t, phi_block m c t, w1s_block m c t, w1d_block m c t,
    w1e_block m c t, w1p_block m c t, b1_block m c t, w2_block m c t, b2_block m c t, wih_block m c t, whh_block m c t,
    bih_block m c t, bhh_block m c t]
  rfl

/-- An index of the array is in point `t`'s block iff each coordinate is in the block's range on its axis. -/
theorem mem_blk (t : Fin cfg0.N) (i : S100000x172.Idx) :
    i ∈ ((cfg0.win 15).blk t).view.set ↔ ∀ a : Fin 2, win0_15.index t a * S1000x172.size a ≤ (i a).val
      ∧ (i a).val < win0_15.index t a * S1000x172.size a + S1000x172.size a := by
  show i ∈ ((View.whole main_v42).slice (win0_15.rect t)).set ↔ _
  rw [View.set_slice_whole, Rect.mem_set_unit]
  exact Iff.rfl

/-- Every row is in some point's block: row `r` in point `r / 1000`'s. -/
theorem covered (i : S100000x172.Idx) :
    ∃ t : Fin cfg0.N, (cfg0.win 15).flush t = true ∧ i ∈ ((cfg0.win 15).blk t).view.set := by
  have hi0 : (i 0).val < 100000 := (i 0).isLt
  have hi1 : (i 1).val < 172 := (i 1).isLt
  have hN : cfg0.N = 100 := N_0
  have ht : (i 0).val / 1000 < cfg0.N := by rw [hN]; omega
  have e := idx_facts ⟨(i 0).val / 1000, ht⟩
  refine ⟨⟨(i 0).val / 1000, ht⟩, flush0_15 _, ?_⟩
  rw [mem_blk]
  intro a
  match a with
  | ⟨0, _⟩ =>
    show win0_15.index ⟨(i 0).val / 1000, ht⟩ (0 : Fin 2) * 1000 ≤ (i 0).val
      ∧ (i 0).val < win0_15.index ⟨(i 0).val / 1000, ht⟩ (0 : Fin 2) * 1000 + 1000
    have e0 : win0_15.index ⟨(i 0).val / 1000, ht⟩ (0 : Fin 2) = (i 0).val / 1000 := e.2.2.2.2.2.2.2.2.2.2.2.2.2.2.2.1
    rw [e0]; omega
  | ⟨1, _⟩ =>
    show win0_15.index ⟨(i 0).val / 1000, ht⟩ (1 : Fin 2) * 172 ≤ (i 1).val
      ∧ (i 1).val < win0_15.index ⟨(i 0).val / 1000, ht⟩ (1 : Fin 2) * 172 + 172
    have e1 : win0_15.index ⟨(i 0).val / 1000, ht⟩ (1 : Fin 2) = 0 := e.2.2.2.2.2.2.2.2.2.2.2.2.2.2.2.2
    rw [e1]; omega

/-- THE OUTPUT ARRAY after the run holds the new memory rows. -/
theorem final (c : Dev nD) : (dats m 0 c).arrAt 15 cfg0.N = newRows m c :=
  (dats m 0 c).arrAt_eq_of_cover 15 (newRows m c) (fun t _ => flushed_eq m c t) covered

end Cert.KernelIdeal.BlockValue

end
-- ==== Proof.RefRow.lean ====
/-
  The reference's new-memory-row array (its last float stage before the scatter), read at row `b`, column `q`:
  the memory-update row function of row `b` of the four gathered arrays, with the first weight matrix read in
  four bands of 172 columns.
-/
import proofs.«116222_j34711925686554_1_alg».proof.Proof.RefRead
import proofs.«116222_j34711925686554_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Idealize.ShloMosaic Idealize.ShloMosaic.ValueIdx Cert.ReferenceIdeal Cert.ReferenceIdeal.ReadP Cert.MessageGru

section Aux

variable (x0 : (⟨S500000x172, .f32⟩ : BufTy).Contents (Elt Ideal)) (x1 : (⟨S500000, .f32⟩ : BufTy).Contents (Elt Ideal))
    (x2 : (⟨S500000x172, .f32⟩ : BufTy).Contents (Elt Ideal)) (x3 x4 : (⟨S172, .f32⟩ : BufTy).Contents (Elt Ideal))
    (x5 : (⟨S344x688, .f32⟩ : BufTy).Contents (Elt Ideal)) (x6 : (⟨S344, .f32⟩ : BufTy).Contents (Elt Ideal))
    (x7 : (⟨S100x344, .f32⟩ : BufTy).Contents (Elt Ideal)) (x8 : (⟨S100, .f32⟩ : BufTy).Contents (Elt Ideal))
    (x9 : (⟨S516x100, .f32⟩ : BufTy).Contents (Elt Ideal)) (x10 : (⟨S516x172, .f32⟩ : BufTy).Contents (Elt Ideal))
    (x11 x12 : (⟨S516, .f32⟩ : BufTy).Contents (Elt Ideal)) (x13 : (⟨S100000, .f32⟩ : BufTy).Contents (Elt Ideal))
    (x14 x15 x16 : (⟨S100000, .i32⟩ : BufTy).Contents (Elt Ideal))

/-! ## Indices -/

/-- A rank-2 index whose coordinates are a and c is the index built from a and c. -/
theorem idx2_eq {n0 n1 : Nat} (j : (⟨2, ![n0, n1]⟩ : Shape).Idx) (a : Fin n0) (c : Fin n1)
    (h0 : (j 0).val = a.val) (h1 : (j 1).val = c.val) : j = ix2 a c :=
  funext fun d => Fin.ext (by
    match d with
    | ⟨0, _⟩ => exact h0
    | ⟨1, _⟩ => exact h1)

/-- A rank-1 index whose coordinate is a is the index built from a. -/
theorem idx1_eq {n : Nat} (j : (⟨1, ![n]⟩ : Shape).Idx) (a : Fin n) (h0 : (j 0).val = a.val) : j = ix1 a :=
  funext fun d => Fin.ext (by
    match d with
    | ⟨0, _⟩ => exact h0)

/-! ## The joined array: each band of 172 columns is one of the four pieces -/

/-- Columns 0 to 171 of the joined array are the first piece. -/
theorem v38_piece0 (b : Fin 100000) (k : Fin 172) (j : S100000x688.Idx) (h0 : (j 0).val = b.val)
    (h1 : (j 1).val = 0 + k.val) :
    val_main_v38 (F := Ideal) x0 x1 x2 x3 x4 x13 x14 x15 x16 j = val_main_v6 (F := Ideal) x0 x14 (ix2 b k) := by
  unfold val_main_v38
  exact concatenate_apply_piece (1 : Fin S100000x688.rank) _ _ j 0 (by show (0 : Nat) < 4; decide) S100000x172 _ rfl rfl 0 rfl (ix2 b k)
    (fun a ha => by
      match a with
      | ⟨0, _⟩ => exact h0.symm
      | ⟨1, _⟩ => exact absurd rfl ha) h1.symm

/-- Columns 172 to 343 of the joined array are the second piece. -/
theorem v38_piece1 (b : Fin 100000) (k : Fin 172) (j : S100000x688.Idx) (h0 : (j 0).val = b.val)
    (h1 : (j 1).val = 172 + k.val) :
    val_main_v38 (F := Ideal) x0 x1 x2 x3 x4 x13 x14 x15 x16 j = val_main_v13 (F := Ideal) x0 x15 (ix2 b k) := by
  unfold val_main_v38
  exact concatenate_apply_piece (1 : Fin S100000x688.rank) _ _ j 1 (by show (1 : Nat) < 4; decide) S100000x172 _ rfl rfl 172 rfl (ix2 b k)
    (fun a ha => by
      match a with
      | ⟨0, _⟩ => exact h0.symm
      | ⟨1, _⟩ => exact absurd rfl ha) h1.symm

/-- Columns 344 to 515 of the joined array are the third piece. -/
theorem v38_piece2 (b : Fin 100000) (k : Fin 172) (j : S100000x688.Idx) (h0 : (j 0).val = b.val)
    (h1 : (j 1).val = 344 + k.val) :
    val_main_v38 (F := Ideal) x0 x1 x2 x3 x4 x13 x14 x15 x16 j = val_main_v20 (F := Ideal) x2 x16 (ix2 b k) := by
  unfold val_main_v38
  exact concatenate_apply_piece (1 : Fin S100000x688.rank) _ _ j 2 (by show (2 : Nat) < 4; decide) S100000x172 _ rfl rfl 344 rfl (ix2 b k)
    (fun a ha => by
      match a with
      | ⟨0, _⟩ => exact h0.symm
      | ⟨1, _⟩ => exact absurd rfl ha) h1.symm

/-- Columns 516 to 687 of the joined array are the fourth piece. -/
theorem v38_piece3 (b : Fin 100000) (k : Fin 172) (j : S100000x688.Idx) (h0 : (j 0).val = b.val)
    (h1 : (j 1).val = 516 + k.val) :
    val_main_v38 (F := Ideal) x0 x1 x2 x3 x4 x13 x14 x15 x16 j = val_main_v37 (F := Ideal) x1 x3 x4 x13 x14 (ix2 b k) := by
  unfold val_main_v38
  exact concatenate_apply_piece (1 : Fin S100000x688.rank) _ _ j 3 (by show (3 : Nat) < 4; decide) S100000x172 _ rfl rfl 516 rfl (ix2 b k)
    (fun a ha => by
      match a with
      | ⟨0, _⟩ => exact h0.symm
      | ⟨1, _⟩ => exact absurd rfl ha) h1.symm

/-- The transposed first weight matrix at row o + k, column h: the matrix at row h, column k of the band that starts at o. -/
theorem v39_at (h : Fin 344) (o : Nat) (ho : o + 172 ≤ 688) (k : Fin 172) (j : S688x344.Idx)
    (h0 : (j 0).val = o + k.val) (h1 : (j 1).val = h.val) :
    val_main_v39 (F := Ideal) x5 j = x5 (ix2 h (band o ho k)) := by
  rw [val_main_v39_apply]
  exact congrArg x5 (idx2_eq _ h (band o ho k) h1 h0)

/-! ## The hidden layer -/

/-- The first contraction over 688 columns is the four contractions over the bands, added left to right. -/
theorem v40_row (b : Fin 100000) (h : Fin 344) :
    val_main_v40 (F := Ideal) x0 x1 x2 x3 x4 x5 x13 x14 x15 x16 (ix2 b h)
      = ((dot (fun k => val_main_v6 (F := Ideal) x0 x14 (ix2 b k)) (fun k => x5 (ix2 h (band 0 (by decide) k)))
            + dot (fun k => val_main_v13 (F := Ideal) x0 x15 (ix2 b k)) (fun k => x5 (ix2 h (band 172 (by decide) k))))
          + dot (fun k => val_main_v20 (F := Ideal) x2 x16 (ix2 b k)) (fun k => x5 (ix2 h (band 344 (by decide) k))))
        + dot (fun k => val_main_v37 (F := Ideal) x1 x3 x4 x13 x14 (ix2 b k)) (fun k => x5 (ix2 h (band 516 (by decide) k))) := by
  rw [val_main_v40_apply, Fin.sum_univ_add (a := 516) (b := 172), Fin.sum_univ_add (a := 344) (b := 172),
    Fin.sum_univ_add (a := 172) (b := 172)]
  unfold dot
  refine congrArg₂ (· + ·) (congrArg₂ (· + ·) (congrArg₂ (· + ·) ?_ ?_) ?_) ?_ <;>
    refine Finset.sum_congr rfl fun k _ => ?_
  · exact congrArg₂ (· * ·) (v38_piece0 x0 x1 x2 x3 x4 x13 x14 x15 x16 b k _ rfl (Nat.zero_add _).symm)
      (v39_at x5 h 0 (by decide) k _ (Nat.zero_add _).symm rfl)
  · exact congrArg₂ (· * ·) (v38_piece1 x0 x1 x2 x3 x4 x13 x14 x15 x16 b k _ rfl rfl)
      (v39_at x5 h 172 (by decide) k _ rfl rfl)
  · exact congrArg₂ (· * ·) (v38_piece2 x0 x1 x2 x3 x4 x13 x14 x15 x16 b k _ rfl rfl)
      (v39_at x5 h 344 (by decide) k _ rfl rfl)
  · exact congrArg₂ (· * ·) (v38_piece3 x0 x1 x2 x3 x4 x13 x14 x15 x16 b k _ rfl rfl)
      (v39_at x5 h 516 (by decide) k _ rfl rfl)

/-- The hidden layer's bias, broadcast over the rows. -/
theorem v42_at (b : Fin 100000) (h : Fin 344) : val_main_v42 (F := Ideal) x6 (ix2 b h) = x6 (ix1 h) := by
  rw [val_main_v42_apply, val_main_v41_apply]
  exact congrArg x6 (idx1_eq _ h rfl)

/-- The hidden layer at row b. -/
theorem v44_row (b : Fin 100000) (h : Fin 344) :
    val_main_v44 (F := Ideal) x0 x1 x2 x3 x4 x5 x6 x13 x14 x15 x16 (ix2 b h)
      = hidden (fun k => val_main_v6 (F := Ideal) x0 x14 (ix2 b k)) (fun k => val_main_v13 (F := Ideal) x0 x15 (ix2 b k))
          (fun k => val_main_v20 (F := Ideal) x2 x16 (ix2 b k)) (fun k => val_main_v37 (F := Ideal) x1 x3 x4 x13 x14 (ix2 b k))
          (fun h k => x5 (ix2 h (band 0 (by decide) k))) (fun h k => x5 (ix2 h (band 172 (by decide) k)))
          (fun h k => x5 (ix2 h (band 344 (by decide) k))) (fun h k => x5 (ix2 h (band 516 (by decide) k)))
          (fun h => x6 (ix1 h)) h := by
  rw [val_main_v44_apply, val_main_v43_apply, v40_row, v42_at, val_main_call0_v0_apply, val_main_call0_cst_apply]
  simp only [Ideal.maximumf_def, Ideal.addf_def, Ideal.ofBits_def, Ideal.ofBits_zero_f32]
  rfl

/-! ## The message layer and the two gate pre-activations -/

/-- The message at row b, from the hidden layer at row b. -/
theorem v49_row (b : Fin 100000) (j : Fin 100) (hid : Fin 344 → EReal)
    (hh : ∀ h : Fin 344, val_main_v44 (F := Ideal) x0 x1 x2 x3 x4 x5 x6 x13 x14 x15 x16 (ix2 b h) = hid h) :
    val_main_v49 (F := Ideal) x0 x1 x2 x3 x4 x5 x6 x7 x8 x13 x14 x15 x16 (ix2 b j)
      = message hid (fun j h => x7 (ix2 j h)) (fun j => x8 (ix1 j)) j := by
  rw [val_main_v49_apply, val_main_v46_apply, val_main_v48_apply, val_main_v47_apply]
  unfold message dot
  refine congrArg₂ (· + ·) (Finset.sum_congr rfl fun k _ => ?_) (congrArg x8 (idx1_eq _ j rfl))
  rw [val_main_v45_apply, idx2_eq (lidx_main_v46 (ix2 b j) k) b k rfl rfl, hh k]
  exact congrArg (fun t => hid k * x7 t) (idx2_eq _ j k rfl rfl)

/-- The input-side gate pre-activations at row b, from the message at row b. -/
theorem v54_row (b : Fin 100000) (g : Fin 516) (msg : Fin 100 → EReal)
    (hm : ∀ j : Fin 100, val_main_v49 (F := Ideal) x0 x1 x2 x3 x4 x5 x6 x7 x8 x13 x14 x15 x16 (ix2 b j) = msg j) :
    val_main_v54 (F := Ideal) x0 x1 x2 x3 x4 x5 x6 x7 x8 x9 x11 x13 x14 x15 x16 (ix2 b g)
      = gate msg (fun g j => x9 (ix2 g j)) (fun g => x11 (ix1 g)) g := by
  rw [val_main_v54_apply, val_main_v51_apply, val_main_v53_apply, val_main_v52_apply]
  unfold gate dot
  refine congrArg₂ (· + ·) (Finset.sum_congr rfl fun k _ => ?_) (congrArg x11 (idx1_eq _ g rfl))
  rw [val_main_v50_apply, idx2_eq (lidx_main_v51 (ix2 b g) k) b k rfl rfl, hm k]
  exact congrArg (fun t => msg k * x9 t) (idx2_eq _ g k rfl rfl)

/-- The state-side gate pre-activations at row b, from the source-memory row. -/
theorem v59_row (b : Fin 100000) (g : Fin 516) :
    val_main_v59 (F := Ideal) x0 x10 x12 x14 (ix2 b g)
      = gate (fun k => val_main_v6 (F := Ideal) x0 x14 (ix2 b k)) (fun g k => x10 (ix2 g k)) (fun g => x12 (ix1 g)) g := by
  rw [val_main_v59_apply, val_main_v56_apply, val_main_v58_apply, val_main_v57_apply]
  unfold gate dot
  refine congrArg₂ (· + ·) (Finset.sum_congr rfl fun k _ => ?_) (congrArg x12 (idx1_eq _ g rfl))
  rw [val_main_v55_apply, idx2_eq (lidx_main_v56 (ix2 b g) k) b k rfl rfl]
  exact congrArg (fun t => val_main_v6 (F := Ideal) x0 x14 (ix2 b k) * x10 t) (idx2_eq _ g k rfl rfl)

/-! ## The recurrent cell -/

/-- The reset gate: the sigmoid of the sum of the two pre-activations' first bands. -/
theorem v72_at (b : Fin 100000) (q : Fin 172) (gx gh : Fin 516 → EReal)
    (hx : ∀ g : Fin 516, val_main_v54 (F := Ideal) x0 x1 x2 x3 x4 x5 x6 x7 x8 x9 x11 x13 x14 x15 x16 (ix2 b g) = gx g)
    (hg : ∀ g : Fin 516, val_main_v59 (F := Ideal) x0 x10 x12 x14 (ix2 b g) = gh g) :
    val_main_v72 (F := Ideal) x0 x1 x2 x3 x4 x5 x6 x7 x8 x9 x10 x11 x12 x13 x14 x15 x16 (ix2 b q)
      = Ideal.logistic (gx (band 0 (by decide) q) + gh (band 0 (by decide) q)) := by
  rw [val_main_v72_apply, val_main_v71_apply, val_main_cst_7_apply, val_main_v70_apply, val_main_v69_apply,
    val_main_cst_apply, val_main_v68_apply, val_main_v67_apply, val_main_v66_apply, val_main_v60_apply,
    val_main_v63_apply,
    idx2_eq (idx_main_v60 (ix2 b q)) b (band 0 (by decide) q) rfl (Nat.zero_add _).symm,
    idx2_eq (idx_main_v63 (ix2 b q)) b (band 0 (by decide) q) rfl (Nat.zero_add _).symm, hx, hg]
  exact sigmoid_spelled _

/-- The update gate: the sigmoid of the sum of the two pre-activations' second bands. -/
theorem v79_at (b : Fin 100000) (q : Fin 172) (gx gh : Fin 516 → EReal)
    (hx : ∀ g : Fin 516, val_main_v54 (F := Ideal) x0 x1 x2 x3 x4 x5 x6 x7 x8 x9 x11 x13 x14 x15 x16 (ix2 b g) = gx g)
    (hg : ∀ g : Fin 516, val_main_v59 (F := Ideal) x0 x10 x12 x14 (ix2 b g) = gh g) :
    val_main_v79 (F := Ideal) x0 x1 x2 x3 x4 x5 x6 x7 x8 x9 x10 x11 x12 x13 x14 x15 x16 (ix2 b q)
      = Ideal.logistic (gx (band 172 (by decide) q) + gh (band 172 (by decide) q)) := by
  rw [val_main_v79_apply, val_main_v78_apply, val_main_cst_9_apply, val_main_v77_apply, val_main_v76_apply,
    val_main_cst_8_apply, val_main_v75_apply, val_main_v74_apply, val_main_v73_apply, val_main_v61_apply,
    val_main_v64_apply,
    idx2_eq (idx_main_v61 (ix2 b q)) b (band 172 (by decide) q) rfl rfl,
    idx2_eq (idx_main_v64 (ix2 b q)) b (band 172 (by decide) q) rfl rfl, hx, hg]
  exact sigmoid_spelled _

/-- The new memory row at row b, from the two gate pre-activations at row b. -/
theorem v87_cell (b : Fin 100000) (q : Fin 172) (gx gh : Fin 516 → EReal)
    (hx : ∀ g : Fin 516, val_main_v54 (F := Ideal) x0 x1 x2 x3 x4 x5 x6 x7 x8 x9 x11 x13 x14 x15 x16 (ix2 b g) = gx g)
    (hg : ∀ g : Fin 516, val_main_v59 (F := Ideal) x0 x10 x12 x14 (ix2 b g) = gh g) :
    val_main_v87 (F := Ideal) x0 x1 x2 x3 x4 x5 x6 x7 x8 x9 x10 x11 x12 x13 x14 x15 x16 (ix2 b q)
      = cell gx gh (fun k => val_main_v6 (F := Ideal) x0 x14 (ix2 b k)) q := by
  rw [val_main_v87_apply, val_main_v85_apply, val_main_v86_apply, val_main_v84_apply, val_main_v83_apply,
    val_main_cst_10_apply, val_main_v82_apply, val_main_v81_apply, val_main_v80_apply, val_main_v62_apply,
    val_main_v65_apply,
    idx2_eq (idx_main_v62 (ix2 b q)) b (band 344 (by decide) q) rfl rfl,
    idx2_eq (idx_main_v65 (ix2 b q)) b (band 344 (by decide) q) rfl rfl, hx, hg,
    v79_at x0 x1 x2 x3 x4 x5 x6 x7 x8 x9 x10 x11 x12 x13 x14 x15 x16 b q gx gh hx hg,
    v72_at x0 x1 x2 x3 x4 x5 x6 x7 x8 x9 x10 x11 x12 x13 x14 x15 x16 b q gx gh hx hg]
  rfl

end Aux

/-- The reference's new memory rows at row `b`, column `q`. -/
theorem reference_row (x0 : (⟨S500000x172, .f32⟩ : BufTy).Contents (Elt Ideal)) (x1 : (⟨S500000, .f32⟩ : BufTy).Contents (Elt Ideal))
    (x2 : (⟨S500000x172, .f32⟩ : BufTy).Contents (Elt Ideal)) (x3 x4 : (⟨S172, .f32⟩ : BufTy).Contents (Elt Ideal))
    (x5 : (⟨S344x688, .f32⟩ : BufTy).Contents (Elt Ideal)) (x6 : (⟨S344, .f32⟩ : BufTy).Contents (Elt Ideal))
    (x7 : (⟨S100x344, .f32⟩ : BufTy).Contents (Elt Ideal)) (x8 : (⟨S100, .f32⟩ : BufTy).Contents (Elt Ideal))
    (x9 : (⟨S516x100, .f32⟩ : BufTy).Contents (Elt Ideal)) (x10 : (⟨S516x172, .f32⟩ : BufTy).Contents (Elt Ideal))
    (x11 x12 : (⟨S516, .f32⟩ : BufTy).Contents (Elt Ideal)) (x13 : (⟨S100000, .f32⟩ : BufTy).Contents (Elt Ideal))
    (x14 x15 x16 : (⟨S100000, .i32⟩ : BufTy).Contents (Elt Ideal)) (b : Fin 100000) (q : Fin 172) :
    val_main_v87 (F := Ideal) x0 x1 x2 x3 x4 x5 x6 x7 x8 x9 x10 x11 x12 x13 x14 x15 x16 (ix2 b q)
      = memoryRow (fun k => val_main_v6 (F := Ideal) x0 x14 (ix2 b k)) (fun k => val_main_v13 (F := Ideal) x0 x15 (ix2 b k))
          (fun k => val_main_v20 (F := Ideal) x2 x16 (ix2 b k)) (fun k => val_main_v37 (F := Ideal) x1 x3 x4 x13 x14 (ix2 b k))
          (fun h k => x5 (ix2 h (band 0 (by decide) k))) (fun h k => x5 (ix2 h (band 172 (by decide) k)))
          (fun h k => x5 (ix2 h (band 344 (by decide) k))) (fun h k => x5 (ix2 h (band 516 (by decide) k)))
          (fun h => x6 (ix1 h)) (fun j h => x7 (ix2 j h)) (fun j => x8 (ix1 j))
          (fun g j => x9 (ix2 g j)) (fun g k => x10 (ix2 g k)) (fun g => x11 (ix1 g)) (fun g => x12 (ix1 g)) q := by
  unfold memoryRow
  exact v87_cell x0 x1 x2 x3 x4 x5 x6 x7 x8 x9 x10 x11 x12 x13 x14 x15 x16 b q _ _
    (fun g => v54_row x0 x1 x2 x3 x4 x5 x6 x7 x8 x9 x11 x13 x14 x15 x16 b g _
      (fun j => v49_row x0 x1 x2 x3 x4 x5 x6 x7 x8 x13 x14 x15 x16 b j _
        (fun h => v44_row x0 x1 x2 x3 x4 x5 x6 x13 x14 x15 x16 b h)))
    (fun g => v59_row x0 x10 x12 x14 b g)

end Cert.ReferenceIdeal.RowValue

end
-- ==== Proof.KernelResult.lean ====
/-
  The kernel program's result, through the host operations after the region, is the reference's last stage.

  The region finds, in its four row windows, the three gathered arrays and the time encoding that the reference
  computes by the same host operations of the same arguments (equal as terms), and in its weight windows the four
  172-column bands of the first weight matrix and the other weight arguments as launched. So the array the region
  leaves, `newRows`, is the reference's array of new memory rows (both are the row function of the same rows,
  the reference's read in bands). The host operations after the region — the position of each node's last
  interaction, then the scatter of the new rows into the memory — are the reference's own, applied to the same index
  argument: the two final scatters have equal operands.
-/
import proofs.«116222_j34711925686554_1_alg».proof.Proof.KernelBlocks
import proofs.«116222_j34711925686554_1_alg».proof.Proof.RefRow
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.ResultValue

open Cert.KernelIdeal Cert.KernelIdeal.Gen Cert.MessageGru Cert.KernelIdeal.BlockValue

variable (m : (ℓ : Loc nD τ sig) → Buf (Elt Ideal) ℓ) (ρ : Dev nD → PrngReg)

/-- An argument array as launched on core `c`. -/
abbrev arg (c : Dev nD) (b : Ref sig .tc) : Buf (Elt Ideal) ((c.tc : Thread nD τ).loc b) := m ((c.tc : Thread nD τ).loc b)

/-- The reference's result array as a function of the kernel program's launch memory. -/
abbrev refResult (c : Dev nD) : Buf (Elt Ideal) ((c.tc : Thread nD τ).loc main_v62) :=
  Cert.ReferenceIdeal.ReadP.val_main_v107 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16)

/-! ## The arrays the region finds are the reference's -/

theorem src_eq (c : Dev nD) : srcA m c = Cert.ReferenceIdeal.ReadP.val_main_v6 (F := Ideal) (arg m c main_arg0) (arg m c main_arg14) := by
  show StableHlo.after hostOps0 (fun b => m (c, b)) (Proc.devRef .tc main_v6) = _
  after_results
  rfl

theorem dst_eq (c : Dev nD) : dstA m c = Cert.ReferenceIdeal.ReadP.val_main_v13 (F := Ideal) (arg m c main_arg0) (arg m c main_arg15) := by
  show StableHlo.after hostOps0 (fun b => m (c, b)) (Proc.devRef .tc main_v13) = _
  after_results_simp
  rfl

theorem edge_eq (c : Dev nD) : edgeA m c = Cert.ReferenceIdeal.ReadP.val_main_v20 (F := Ideal) (arg m c main_arg2) (arg m c main_arg16) := by
  show StableHlo.after hostOps0 (fun b => m (c, b)) (Proc.devRef .tc main_v20) = _
  after_results_simp
  rfl

set_option maxHeartbeats 1000000 in
theorem phi_eq (c : Dev nD) : phiA m c = Cert.ReferenceIdeal.ReadP.val_main_v37 (F := Ideal) (arg m c main_arg1) (arg m c main_arg3) (arg m c main_arg4)
    (arg m c main_arg13) (arg m c main_arg14) := by
  show StableHlo.after hostOps0 (fun b => m (c, b)) (Proc.devRef .tc main_v37) = _
  after_results_simp
  rfl

/-- The first band of the first weight matrix: columns `0 … 171`. -/
theorem w1s_eq (c : Dev nD) (h : Fin 344) (k : Fin 172) :
    w1sA m c (ix2 h k) = (arg m c main_arg5 : S344x688.Idx → EReal) (ix2 h (band 0 (by decide) k)) := by
  have e : w1sA m c = extractStridedSlice S344x172 ![0, 0] (arg m c main_arg5) slices_S344x688_S344x172_0_0 := by
    show StableHlo.after hostOps0 (fun b => m (c, b)) (Proc.devRef .tc main_v38) = _
    after_results
  rw [e]
  exact slice2_axis1_apply 0 _ _ h k (band 0 (by decide) k) rfl

/-- The second band: columns `172 … 343`. -/
theorem w1d_eq (c : Dev nD) (h : Fin 344) (k : Fin 172) :
    w1dA m c (ix2 h k) = (arg m c main_arg5 : S344x688.Idx → EReal) (ix2 h (band 172 (by decide) k)) := by
  have e : w1dA m c = extractStridedSlice S344x172 ![0, 172] (arg m c main_arg5) slices_S344x688_S344x172_0_172 := by
    show StableHlo.after hostOps0 (fun b => m (c, b)) (Proc.devRef .tc main_v39) = _
    after_results
  rw [e]
  exact slice2_axis1_apply 172 _ _ h k (band 172 (by decide) k) rfl

/-- The third band: columns `344 … 515`. -/
theorem w1e_eq (c : Dev nD) (h : Fin 344) (k : Fin 172) :
    w1eA m c (ix2 h k) = (arg m c main_arg5 : S344x688.Idx → EReal) (ix2 h (band 344 (by decide) k)) := by
  have e : w1eA m c = extractStridedSlice S344x172 ![0, 344] (arg m c main_arg5) slices_S344x688_S344x172_0_344 := by
    show StableHlo.after hostOps0 (fun b => m (c, b)) (Proc.devRef .tc main_v40) = _
    after_results
  rw [e]
  exact slice2_axis1_apply 344 _ _ h k (band 344 (by decide) k) rfl

/-- The fourth band: columns `516 … 687`. -/
theorem w1p_eq (c : Dev nD) (h : Fin 344) (k : Fin 172) :
    w1pA m c (ix2 h k) = (arg m c main_arg5 : S344x688.Idx → EReal) (ix2 h (band 516 (by decide) k)) := by
  have e : w1pA m c = extractStridedSlice S344x172 ![0, 516] (arg m c main_arg5) slices_S344x688_S344x172_0_516 := by
    show StableHlo.after hostOps0 (fun b => m (c, b)) (Proc.devRef .tc main_v41) = _
    after_results
  rw [e]
  exact slice2_axis1_apply 516 _ _ h k (band 516 (by decide) k) rfl

/-- The row function respects equality of each of its arguments. -/
theorem memoryRow_congr {s s' d d' e e' p p' : Fin 172 → EReal} {Ws Ws' Wd Wd' We We' Wp Wp' : Fin 344 → Fin 172 → EReal}
    {b1 b1' : Fin 344 → EReal} {W2 W2' : Fin 100 → Fin 344 → EReal} {b2 b2' : Fin 100 → EReal}
    {Wih Wih' : Fin 516 → Fin 100 → EReal} {Whh Whh' : Fin 516 → Fin 172 → EReal} {bih bih' bhh bhh' : Fin 516 → EReal}
    (hs : s = s') (hd : d = d') (he : e = e') (hp : p = p') (hWs : Ws = Ws') (hWd : Wd = Wd') (hWe : We = We') (hWp : Wp = Wp')
    (hb1 : b1 = b1') (hW2 : W2 = W2') (hb2 : b2 = b2') (hWih : Wih = Wih') (hWhh : Whh = Whh') (hbih : bih = bih')
    (hbhh : bhh = bhh') (q : Fin 172) :
    memoryRow s d e p Ws Wd We Wp b1 W2 b2 Wih Whh bih bhh q = memoryRow s' d' e' p' Ws' Wd' We' Wp' b1' W2' b2' Wih' Whh' bih' bhh' q := by
  subst hs hd he hp hWs hWd hWe hWp hb1 hW2 hb2 hWih hWhh hbih hbhh
  rfl

/-- The array the region leaves is the reference's array of new memory rows. -/
theorem newRows_eq (c : Dev nD) :
    newRows m c = Cert.ReferenceIdeal.ReadP.val_main_v87 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) := by
  funext i
  obtain ⟨b, q, rfl⟩ : ∃ (b : Fin 100000) (q : Fin 172), i = ix2 b q := ⟨i 0, i 1, eq_ix2 (n0 := 100000) (n1 := 172) i⟩
  rw [Cert.ReferenceIdeal.RowValue.reference_row]
  unfold newRows
  exact memoryRow_congr
    (funext fun k => congrFun (src_eq m c) (ix2 b k)) (funext fun k => congrFun (dst_eq m c) (ix2 b k))
    (funext fun k => congrFun (edge_eq m c) (ix2 b k)) (funext fun k => congrFun (phi_eq m c) (ix2 b k))
    (funext fun h => funext fun k => w1s_eq m c h k) (funext fun h => funext fun k => w1d_eq m c h k)
    (funext fun h => funext fun k => w1e_eq m c h k) (funext fun h => funext fun k => w1p_eq m c h k)
    (funext fun h => congrFun (V_main_arg6 m c) (ix1 h)) (funext fun j => funext fun h => congrFun (V_main_arg7 m c) (ix2 j h))
    (funext fun j => congrFun (V_main_arg8 m c) (ix1 j)) (funext fun g => funext fun j => congrFun (V_main_arg9 m c) (ix2 g j))
    (funext fun g => funext fun k => congrFun (V_main_arg10 m c) (ix2 g k)) (funext fun g => congrFun (V_main_arg11 m c) (ix1 g))
    (funext fun g => congrFun (V_main_arg12 m c) (ix1 g)) q

/-! ## The host operations after the region -/

/-- From ANY contents of the buffers at the region's exit, the operations after the region leave in the result buffer
    the scatter of the output window's array into the memory argument at the reference's own index array of the
    source-node argument. -/
theorem tail_value {F : FTy → Type} [FloatOps F] (W : Valuation τ sig (Elt F)) :
    StableHlo.after (List.flatten [hostOps1, hostOps1_1, hostOps1_2]) W (Proc.devRef .tc main_v62)
      = Host.scatter scatter_S500000x172_S100000x1_S100000x172_1_0_0_1 (fun _ b => b) (W (Proc.devRef .tc main_arg0))
          (Cert.ReferenceIdeal.ReadP.val_main_v106 (F := F) (W (Proc.devRef .tc main_arg14))) (W (Proc.devRef .tc main_v42)) := by
  simp only [hostOps1, hostOps1_1, hostOps1_2, List.flatten_cons, List.flatten_nil, List.append_nil, List.cons_append, List.nil_append]
  after_results_simp
  simp only [TRef.ofBuf, TRef.toBuf, cast_eq]
  rfl

/-- The kernel program's result buffer after the run. -/
theorem result_eq (c : Dev nD) :
    Pipeline.afterTail₀ cfgs (dats m) 0 (V0 m) [hostOps1, hostOps1_1, hostOps1_2] c main_v62 = refResult m c := by
  unfold Pipeline.afterTail₀
  refine (tail_value (F := Ideal) _).trans ?_
  have h0 : Pipeline.withArrays (cfgs 0).spec c (V0 m c) (fun w => (dats m 0 c).arrAt w (cfgs 0).N) (Proc.devRef .tc main_arg0)
      = arg m c main_arg0 :=
    (Pipeline.withArrays_of_ne _ c (V0 m c) _ main_arg0 (by exact (by decide : ∀ w, Pipeline.arrRef spec0 w ≠ main_arg0))).trans
      (V_main_arg0 m c)
  have h14 : Pipeline.withArrays (cfgs 0).spec c (V0 m c) (fun w => (dats m 0 c).arrAt w (cfgs 0).N) (Proc.devRef .tc main_arg14)
      = arg m c main_arg14 :=
    (Pipeline.withArrays_of_ne _ c (V0 m c) _ main_arg14 (by exact (by decide : ∀ w, Pipeline.arrRef spec0 w ≠ main_arg14))).trans
      (V_main_arg14 m c)
  have h42 : Pipeline.withArrays (cfgs 0).spec c (V0 m c) (fun w => (dats m 0 c).arrAt w (cfgs 0).N) (Proc.devRef .tc main_v42)
      = Cert.ReferenceIdeal.ReadP.val_main_v87 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) :=
    ((Pipeline.withArrays_arr spec0 launch0.win.arr_inj c _ _ 15).trans (final m c)).trans (newRows_eq m c)
  rw [h0, h14, h42]
  rfl

/-! ## The run, read -/

/-- Every weakly fair execution of the kernel program ends with the result buffer at the reference's result of the
    launch arguments, and the arguments unchanged. -/
theorem run : θ_run defs (onTc (τ := τ) (main (F := Ideal))) ⟨m, fun _ => 0, ρ⟩ fun r => ∀ c : Dev nD,
      r.2.mem ((c.tc : Thread nD τ).loc main_v62) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨((h c).2 main_v62 (Pipeline.mem_restRefs_of main_v62 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 8).trans (((dats m 0 c).arrAt_in 8 rfl _).trans ((A_eq m c 8).trans (V_main_arg6 m c))),
      ((h c).1 9).trans (((dats m 0 c).arrAt_in 9 rfl _).trans ((A_eq m c 9).trans (V_main_arg7 m c))),
      ((h c).1 10).trans (((dats m 0 c).arrAt_in 10 rfl _).trans ((A_eq m c 10).trans (V_main_arg8 m c))),
      ((h c).1 11).trans (((dats m 0 c).arrAt_in 11 rfl _).trans ((A_eq m c 11).trans (V_main_arg9 m c))),
      ((h c).1 12).trans (((dats m 0 c).arrAt_in 12 rfl _).trans ((A_eq m c 12).trans (V_main_arg10 m c))),
      ((h c).1 13).trans (((dats m 0 c).arrAt_in 13 rfl _).trans ((A_eq m c 13).trans (V_main_arg11 m c))),
      ((h c).1 14).trans (((dats m 0 c).arrAt_in 14 rfl _).trans ((A_eq m c 14).trans (V_main_arg12 m c))),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c))⟩)
    (run_main m ρ)

end Cert.KernelIdeal.ResultValue

end
-- ==== Proof.lean ====
/-
  The certificate of the memory-update kernel against its reference.

  Both programs gather, per interaction, a source-memory row, a destination-memory row and an edge-feature row by the
  same host gathers of the same arguments, and encode the time since the source's last update by the same host
  operations (a difference, a product with a frequency row, a bias, a cosine). The kernel program then computes the
  new memory rows in ONE tiled region of 100 points of 1000 rows each: a two-layer message function whose first
  weight matrix acts on the four parts of the raw message as four 172-column bands, and a gated recurrent cell. The
  reference computes the same rows on the host from the concatenated raw message and the whole first weight matrix.
  At the ideal instance the two agree row by row: a change of float format is the identity, a matrix product into a
  zero accumulator and the host's contraction are the same sums, the 688-term contraction over the concatenation is the
  four 172-term contractions added left to right (a regrouping of one sum), and the kernel's one sigmoid operation is the
  quotient `1 / (1 + e^(-x))` the reference spells out. Both programs finish with the same host operations: the position
  of each node's last interaction, then the scatter of the new rows into the memory at the nodes whose last interaction
  it is; these are applied to equal operands.

  The three frames: the two kernel programs' are the generated frame certificates; the reference's is its run with the
  result dropped. The idealization rewrote nothing, so nothing is owed for it.
-/
import proofs.«116222_j34711925686554_1_alg».proof.Defs
import proofs.«116222_j34711925686554_1_alg».proof.Proof.Gen.Kernel
import proofs.«116222_j34711925686554_1_alg».proof.Proof.Gen.Kernel.Skeleton
import proofs.«116222_j34711925686554_1_alg».proof.Proof.Gen.Kernel.Launch
import proofs.«116222_j34711925686554_1_alg».proof.Proof.Gen.Kernel.Points
import proofs.«116222_j34711925686554_1_alg».proof.Proof.Gen.Kernel.Frame
import proofs.«116222_j34711925686554_1_alg».proof.Proof.Gen.KernelIdeal
import proofs.«116222_j34711925686554_1_alg».proof.Proof.Gen.KernelIdeal.Skeleton
import proofs.«116222_j34711925686554_1_alg».proof.Proof.Gen.KernelIdeal.Launch
import proofs.«116222_j34711925686554_1_alg».proof.Proof.Gen.KernelIdeal.Points
import proofs.«116222_j34711925686554_1_alg».proof.Proof.Gen.KernelIdeal.Frame
import proofs.«116222_j34711925686554_1_alg».proof.Proof.Gen.ReferenceIdeal
import proofs.«116222_j34711925686554_1_alg».proof.Proof.Gen.Pre_finite_inputs
import proofs.«116222_j34711925686554_1_alg».proof.Proof.RefRun
import proofs.«116222_j34711925686554_1_alg».proof.Proof.RefRead
import proofs.«116222_j34711925686554_1_alg».proof.Proof.KernelResult
import Idealize.ShloMosaic.Adequacy
import Idealize.ShloMosaic.Init

noncomputable section

namespace Cert.Proof

open Idealize.ShloMosaic Idealize.SL.Sem

/-- The kernel program as printed runs and keeps its arguments: the generated frame certificate. -/
theorem frame_kernel : Cert.frame_Kernel := fun m ρ _ => Cert.Kernel.Gen.frame m ρ

/-- The same for its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the result at the reference's last stage of the
    kernel program's arguments: the kernel program by its run read through the region and the host operations after it,
    the reference by its run, the agreeing arguments rewritten. -/
theorem algebraic : Cert.algebraic_KernelIdeal_ReferenceIdeal := by
  intro m ρ m' ρ' _ hagree
  refine ⟨fun c => Cert.KernelIdeal.ResultValue.refResult m c, Cert.KernelIdeal.ResultValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v107_eq]
  obtain ⟨e0, e1, e2, e3, e4, e5, e6, e7, e8, e9, e10, e11, e12, e13, e14, e15, e16⟩ := hagree c
  rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
